-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x384x64 : Shape := ⟨3, ![2, 384, 64]⟩
abbrev S128x384 : Shape := ⟨2, ![128, 384]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S2x384x64 : S_.BroadcastsInDim S2x384x64 (![] : Fin 0 → Fin S2x384x64.rank)
  reducesTo_S2x384x64_S_d0_1_2 : S2x384x64.ReducesTo [0, 1, 2] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2x384x64 .f32) (main_arg1 : FVec F S128x384 .f32) (main_arg2 : FVec F S128 .f32) (main_arg3 : FVec F S1x128 .f32) (main_arg4 : FVec F S1 .f32) : IVec S_ 1 :=
  let main_v0 : FVec F S2x384x64 .f32 := Host.absf main_arg0
  let main_cst : FVec F S_ .f32 := constant S_ .f32 0x7F800000#32
  let main_v1 : FVec F S2x384x64 .f32 := broadcastInDim S2x384x64 ![] bcast_S_S2x384x64 main_cst
  let main_v2 : IVec S2x384x64 1 := cmpf .olt main_v0 main_v1
  let main_c : IVec S_ 1 := constantI S_ 1 1#1
  let main_v3 : IVec S_ 1 := (fun x v => Host.reduce IntOp.andi x v reducesTo_S2x384x64_S_d0_1_2 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Kernel.lean ====
abbrev S2x384x64 : Shape := ⟨3, ![2, 384, 64]⟩
abbrev S128x384 : Shape := ⟨2, ![128, 384]⟩
abbrev S128 : Shape := ⟨1, ![128]⟩
abbrev S1x128 : Shape := ⟨2, ![1, 128]⟩
abbrev S1 : Shape := ⟨1, ![1]⟩
abbrev S2x383x64 : Shape := ⟨3, ![2, 383, 64]⟩
abbrev S_ : Shape := ⟨0, ![]⟩
abbrev S2x384x384x1 : Shape := ⟨4, ![2, 384, 384, 1]⟩
abbrev S1x128x64 : Shape := ⟨3, ![1, 128, 64]⟩
abbrev S1x128x128x1 : Shape := ⟨4, ![1, 128, 128, 1]⟩
abbrev S128x128x384 : Shape := ⟨3, ![128, 128, 384]⟩
abbrev S128x64 : Shape := ⟨2, ![128, 64]⟩
abbrev S128x128x1 : Shape := ⟨3, ![128, 128, 1]⟩
abbrev S128x1x64 : Shape := ⟨3, ![128, 1, 64]⟩
abbrev S128x128x64 : Shape := ⟨3, ![128, 128, 64]⟩
abbrev S128x128x128 : Shape := ⟨3, ![128, 128, 128]⟩
abbrev S16384x384 : Shape := ⟨2, ![16384, 384]⟩
abbrev S384x128 : Shape := ⟨2, ![384, 128]⟩
abbrev S16384x128 : Shape := ⟨2, ![16384, 128]⟩
abbrev S128x1 : Shape := ⟨2, ![128, 1]⟩
abbrev S16384x1 : Shape := ⟨2, ![16384, 1]⟩
abbrev S1x1 : Shape := ⟨2, ![1, 1]⟩

abbrev nBuf : Space → Nat
  | .hbm => 14
  | .vmem => 19
  | .smem => 0
  | _ => 0

abbrev bufTy : (tb : Table) → Fin (tcTables nBuf tb) → BufTy
  | .hbm, ⟨0, _⟩ => ⟨S2x384x64, .f32⟩
  | .hbm, ⟨1, _⟩ => ⟨S128x384, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S2x383x64, .f32⟩
  | .hbm, ⟨6, _⟩ => ⟨S_, .i32⟩
  | .hbm, ⟨7, _⟩ => ⟨S_, .f32⟩
  | .hbm, ⟨8, _⟩ => ⟨S2x384x64, .f32⟩
  | .hbm, ⟨9, _⟩ => ⟨S2x383x64, .f32⟩
  | .hbm, ⟨10, _⟩ => ⟨S_, .i32⟩
  | .hbm, ⟨11, _⟩ => ⟨S_, .f32⟩
  | .hbm, ⟨12, _⟩ => ⟨S2x384x64, .f32⟩
  | .hbm, ⟨13, _⟩ => ⟨S2x384x384x1, .f32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S128x384, .f32⟩
  | .local _ .vmem, ⟨13, _⟩ => ⟨S128, .f32⟩
  | .local _ .vmem, ⟨14, _⟩ => ⟨S1x128, .f32⟩
  | .local _ .vmem, ⟨15, _⟩ => ⟨S1, .f32⟩
  | .local _ .vmem, ⟨16, _⟩ => ⟨S1x128x128x1, .f32⟩
  | .local _ .vmem, ⟨17, _⟩ => ⟨S1x128x128x1, .f32⟩
  | .local _ .vmem, ⟨18, _⟩ => ⟨S128x128x384, .bf16⟩
  | _, _ => ⟨S2x384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨3, ![2, 3, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  slices_S2x384x64_S2x383x64_0_0_0 : S2x384x64.Slices ![0, 0, 0] S2x383x64
  pads_S2x383x64_S2x384x64_000_100_000 : S2x383x64.Pads (![0, 1, 0] : Fin 3 → Nat) ![0, 0, 0] ![0, 0, 0] S2x384x64
  h_S_ : 0 < S_.numel
  slices_S2x384x64_S2x383x64_0_1_0 : S2x384x64.Slices ![0, 1, 0] S2x383x64
  pads_S2x383x64_S2x384x64_000_010_000 : S2x383x64.Pads (![0, 0, 0] : Fin 3 → Nat) ![0, 1, 0] ![0, 0, 0] S2x384x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  bitsLt_bf16_f32 : FTy.bits .bf16 < FTy.bits .f32
  iota_S128x128x1_d0_w32 : S128x128x1.Iotas .tc 32 [0]
  iota_S128x128x1_d1_w32 : S128x128x1.Iotas .tc 32 [1]
  natLt_1_32 : 1 < 32
  shapeCasts_S128x64_S128x1x64 : S128x64.ShapeCasts S128x1x64
  shapeCasts_S128x1x64_S128x1x64 : S128x1x64.ShapeCasts S128x1x64
  broadcasts_S128x1x64_S128x128x64 : S128x1x64.Broadcasts S128x128x64
  shapeCasts_S128x64_S1x128x64 : S128x64.ShapeCasts S1x128x64
  shapeCasts_S1x128x64_S1x128x64 : S1x128x64.ShapeCasts S1x128x64
  broadcasts_S1x128x64_S128x128x64 : S1x128x64.Broadcasts S128x128x64
  broadcasts_S128x128x1_S128x128x64 : S128x128x1.Broadcasts S128x128x64
  concatenates_S128x128x64_S128x128x64_S128x128x128_d2 : Shape.Concatenates [S128x128x64, S128x128x64] S128x128x128 2
  inb_S128x128x384_S128x128x128_0_0_0 : ∀ a, (![0, 0, 0] : Fin 3 → Nat) a + S128x128x128.size a ≤ S128x128x384.size a
  h_S128x128x128 : 0 < S128x128x128.numel
  shapeCasts_S128x128x128_S128x128x128 : S128x128x128.ShapeCasts S128x128x128
  packedbf16_S128x128x384_S128x128x128_0_0_0 : (Rect.unit (s := S128x128x384) ![0, 0, 0] S128x128x128.size inb_S128x128x384_S128x128x128_0_0_0).PackedRows (EltTy.packing .bf16)
  inb_S128x128x384_S128x128x128_0_0_128 : ∀ a, (![0, 0, 128] : Fin 3 → Nat) a + S128x128x128.size a ≤ S128x128x384.size a
  packedbf16_S128x128x384_S128x128x128_0_0_128 : (Rect.unit (s := S128x128x384) ![0, 0, 128] S128x128x128.size inb_S128x128x384_S128x128x128_0_0_128).PackedRows (EltTy.packing .bf16)
  inb_S128x128x384_S128x128x128_0_0_256 : ∀ a, (![0, 0, 256] : Fin 3 → Nat) a + S128x128x128.size a ≤ S128x128x384.size a
  packedbf16_S128x128x384_S128x128x128_0_0_256 : (Rect.unit (s := S128x128x384) ![0, 0, 256] S128x128x128.size inb_S128x128x384_S128x128x128_0_0_256).PackedRows (EltTy.packing .bf16)
  inb_S128x128x384_S128x128x384_0_0_0 : ∀ a, (![0, 0, 0] : Fin 3 → Nat) a + S128x128x384.size a ≤ S128x128x384.size a
  h_S128x128x384 : 0 < S128x128x384.numel
  shapeCasts_S128x128x384_S16384x384 : S128x128x384.ShapeCasts S16384x384
  inb_S128x384_S128x384_0_0 : ∀ a, (![0, 0] : Fin 2 → Nat) a + S128x384.size a ≤ S128x384.size a
  h_S128x384 : 0 < S128x384.numel
  transposes_S128x384_p1_0_S384x128 : S128x384.Transposes [1, 0] S384x128
  inb_S128_S128_0 : ∀ a, (![0] : Fin 1 → Nat) a + S128.size a ≤ S128.size a
  h_S128 : 0 < S128.numel
  shapeCasts_S128_S1x128 : S128.ShapeCasts S1x128
  broadcasts_S1x128_S16384x128 : S1x128.Broadcasts S16384x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S1_S1_0 : ∀ a, (![0] : Fin 1 → Nat) a + S1.size a ≤ S1.size a
  h_S1 : 0 < S1.numel
  shapeCasts_S1_S1x1 : S1.ShapeCasts S1x1
  broadcasts_S1x1_S16384x1 : S1x1.Broadcasts S16384x1
  shapeCasts_S16384x1_S128x128x1 : S16384x1.ShapeCasts S128x128x1
  inb_S1x128x128x1_S1x128x128x1_0_0_0_0 : ∀ a, (![0, 0, 0, 0] : Fin 4 → Nat) a + S1x128x128x1.size a ≤ S1x128x128x1.size a
  h_S1x128x128x1 : 0 < S1x128x128x1.numel
  shapeCasts_S1x128x128x1_S128x128x1 : S1x128x128x1.ShapeCasts S128x128x1
  shapeCasts_S128x128x1_S1x128x128x1 : S128x128x1.ShapeCasts S1x128x128x1
  dot_S16384x384_S384x128_S16384x128_1_0_0_1_n_n_wf : DotDims.WF S16384x384 S384x128 S16384x128 [1] [0] [0] [1] [] []
  dot_S16384x128_S128x1_S16384x1_1_0_0_1_n_n_wf : DotDims.WF S16384x128 S128x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S2x384x64.size a
  hwx0_0 : ∀ i : grid0.Coords, EltTy.bits .f32 = 32 ∨ (Rect.block (s := S2x384x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S2x384x64.size a
  hwx0_1 : ∀ i : grid0.Coords, EltTy.bits .f32 = 32 ∨ (Rect.block (s := S2x384x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S2x384x64.size a
  hwx0_2 : ∀ i : grid0.Coords, EltTy.bits .f32 = 32 ∨ (Rect.block (s := S2x384x64) S1x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S2x384x64.size a
  hwx0_3 : ∀ i : grid0.Coords, EltTy.bits .f32 = 32 ∨ (Rect.block (s := S2x384x64) S1x128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x64.size a ≤ S2x384x64.size a
  hwx0_4 : ∀ i : grid0.Coords, EltTy.bits .f32 = 32 ∨ (Rect.block (s := S2x384x64) S1x128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x64.size a ≤ S2x384x64.size a
  hwx0_5 : ∀ i : grid0.Coords, EltTy.bits .f32 = 32 ∨ (Rect.block (s := S2x384x64) S1x128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x128x1.size a ≤ S2x384x384x1.size a
  hwx0_10 : ∀ i : grid0.Coords, EltTy.bits .f32 = 32 ∨ (Rect.block (s := S2x384x384x1) S1x128x128x1.size (cc0_transform_10 i) (hinb0_10 i)).WholeWords (EltTy.packing .f32)

variable [Facts₀]

def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x128x128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x384x64 : Shape := ⟨3, ![2, 384, 64]⟩
abbrev S128x384 : Shape := ⟨2, ![128, 384]⟩
abbrev S128 : Shape := ⟨1, ![128]⟩
abbrev S1x128 : Shape := ⟨2, ![1, 128]⟩
abbrev S1 : Shape := ⟨1, ![1]⟩
abbrev S2x384x1x64 : Shape := ⟨4, ![2, 384, 1, 64]⟩
abbrev S2x384x384x64 : Shape := ⟨4, ![2, 384, 384, 64]⟩
abbrev S2x1x384x64 : Shape := ⟨4, ![2, 1, 384, 64]⟩
abbrev S2x384x384x128 : Shape := ⟨4, ![2, 384, 384, 128]⟩
abbrev S2x383x383x128 : Shape := ⟨4, ![2, 383, 383, 128]⟩
abbrev S_ : Shape := ⟨0, ![]⟩
abbrev S2x384x384x384 : Shape := ⟨4, ![2, 384, 384, 384]⟩
abbrev S1x1x1x128 : Shape := ⟨4, ![1, 1, 1, 128]⟩
abbrev S2x384x384x1 : Shape := ⟨4, ![2, 384, 384, 1]⟩
abbrev S1x1x1x1 : Shape := ⟨4, ![1, 1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x384x64, .f32⟩
  | .hbm, ⟨1, _⟩ => ⟨S128x384, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S2x384x1x64, .f32⟩
  | .hbm, ⟨6, _⟩ => ⟨S2x384x384x64, .f32⟩
  | .hbm, ⟨7, _⟩ => ⟨S2x1x384x64, .f32⟩
  | .hbm, ⟨8, _⟩ => ⟨S2x384x384x64, .f32⟩
  | .hbm, ⟨9, _⟩ => ⟨S2x384x384x128, .f32⟩
  | .hbm, ⟨10, _⟩ => ⟨S2x383x383x128, .f32⟩
  | .hbm, ⟨11, _⟩ => ⟨S_, .i32⟩
  | .hbm, ⟨12, _⟩ => ⟨S_, .f32⟩
  | .hbm, ⟨13, _⟩ => ⟨S2x384x384x128, .f32⟩
  | .hbm, ⟨14, _⟩ => ⟨S2x383x383x128, .f32⟩
  | .hbm, ⟨15, _⟩ => ⟨S_, .i32⟩
  | .hbm, ⟨16, _⟩ => ⟨S_, .f32⟩
  | .hbm, ⟨17, _⟩ => ⟨S2x384x384x128, .f32⟩
  | .hbm, ⟨18, _⟩ => ⟨S2x384x384x384, .f32⟩
  | .hbm, ⟨19, _⟩ => ⟨S2x384x384x128, .f32⟩
  | .hbm, ⟨20, _⟩ => ⟨S1x1x1x128, .f32⟩
  | .hbm, ⟨21, _⟩ => ⟨S2x384x384x128, .f32⟩
  | .hbm, ⟨22, _⟩ => ⟨S2x384x384x128, .f32⟩
  | .hbm, ⟨23, _⟩ => ⟨S_, .f32⟩
  | .hbm, ⟨24, _⟩ => ⟨S2x384x384x128, .f32⟩
  | .hbm, ⟨25, _⟩ => ⟨S2x384x384x128, .f32⟩
  | .hbm, ⟨26, _⟩ => ⟨S2x384x384x1, .f32⟩
  | .hbm, ⟨27, _⟩ => ⟨S1x1x1x1, .f32⟩
  | .hbm, ⟨28, _⟩ => ⟨S2x384x384x1, .f32⟩
  | .hbm, ⟨29, _⟩ => ⟨S2x384x384x1, .f32⟩
  | _, _ => ⟨S2x384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call2_cst : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S2x384x64_S2x384x1x64_0_1_3 : S2x384x64.BroadcastsInDim S2x384x1x64 (![0, 1, 3] : Fin 3 → Fin S2x384x1x64.rank)
  bcast_S2x384x1x64_S2x384x384x64_0_1_2_3 : S2x384x1x64.BroadcastsInDim S2x384x384x64 (![0, 1, 2, 3] : Fin 4 → Fin S2x384x384x64.rank)
  bcast_S2x384x64_S2x1x384x64_0_2_3 : S2x384x64.BroadcastsInDim S2x1x384x64 (![0, 2, 3] : Fin 3 → Fin S2x1x384x64.rank)
  bcast_S2x1x384x64_S2x384x384x64_0_1_2_3 : S2x1x384x64.BroadcastsInDim S2x384x384x64 (![0, 1, 2, 3] : Fin 4 → Fin S2x384x384x64.rank)
  concatenates_S2x384x384x64_S2x384x384x64_S2x384x384x128_d3 : Shape.Concatenates [S2x384x384x64, S2x384x384x64] S2x384x384x128 3
  slices_S2x384x384x128_S2x383x383x128_0_0_1_0 : S2x384x384x128.Slices ![0, 0, 1, 0] S2x383x383x128
  pads_S2x383x383x128_S2x384x384x128_000_100_010_000 : S2x383x383x128.Pads (![0, 1, 0, 0] : Fin 4 → Nat) ![0, 0, 1, 0] ![0, 0, 0, 0] S2x384x384x128
  h_S_ : 0 < S_.numel
  slices_S2x384x384x128_S2x383x383x128_0_1_0_0 : S2x384x384x128.Slices ![0, 1, 0, 0] S2x383x383x128
  pads_S2x383x383x128_S2x384x384x128_000_010_100_000 : S2x383x383x128.Pads (![0, 0, 1, 0] : Fin 4 → Nat) ![0, 1, 0, 0] ![0, 0, 0, 0] S2x384x384x128
  concatenates_S2x384x384x128_S2x384x384x128_S2x384x384x128_S2x384x384x384_d3 : Shape.Concatenates [S2x384x384x128, S2x384x384x128, S2x384x384x128] S2x384x384x384 3
  bcast_S128_S1x1x1x128_3 : S128.BroadcastsInDim S1x1x1x128 (![3] : Fin 1 → Fin S1x1x1x128.rank)
  bcast_S1x1x1x128_S2x384x384x128_0_1_2_3 : S1x1x1x128.BroadcastsInDim S2x384x384x128 (![0, 1, 2, 3] : Fin 4 → Fin S2x384x384x128.rank)
  bcast_S_S2x384x384x128 : S_.BroadcastsInDim S2x384x384x128 (![] : Fin 0 → Fin S2x384x384x128.rank)
  bcast_S1_S1x1x1x1_3 : S1.BroadcastsInDim S1x1x1x1 (![3] : Fin 1 → Fin S1x1x1x1.rank)
  bcast_S1x1x1x1_S2x384x384x1_0_1_2_3 : S1x1x1x1.BroadcastsInDim S2x384x384x1 (![0, 1, 2, 3] : Fin 4 → Fin S2x384x384x1.rank)
  dot_S2x384x384x384_S128x384_S2x384x384x128_3_1_012_0_n_n_wf : DotDims.WF S2x384x384x384 S128x384 S2x384x384x128 [3] [1] [0, 1, 2] [0] [] []
  dot_S2x384x384x128_S1x128_S2x384x384x1_3_1_012_0_n_n_wf : DotDims.WF S2x384x384x128 S1x128 S2x384x384x1 [3] [1] [0, 1, 2] [0] [] []

variable [Facts₀]

def dot_S2x384x384x384_S128x384_S2x384x384x128_3_1_012_0_n_n : DotDims S2x384x384x384 S128x384 S2x384x384x128 where
  lhsContracting := [3]
  rhsContracting := [1]
  lhsNonContracting := [0, 1, 2]
  rhsNonContracting := [0]
  lhsBatch := []
  rhsBatch := []
  wf := dot_S2x384x384x384_S128x384_S2x384x384x128_3_1_012_0_n_n_wf
def dot_S2x384x384x128_S1x128_S2x384x384x1_3_1_012_0_n_n : DotDims S2x384x384x128 S1x128 S2x384x384x1 where
  lhsContracting := [3]
  rhsContracting := [1]
  lhsNonContracting := [0, 1, 2]
  rhsNonContracting := [0]
  lhsBatch := []
  rhsBatch := []
  wf := dot_S2x384x384x128_S1x128_S2x384x384x1_3_1_012_0_n_n_wf

class Facts : Prop extends Facts₀ where

variable [Facts]
-- ==== Proof.KBody.lean ====
/- What the kernel body does at one grid point, as a triple of the program logic: handed the ten input
   blocks in their staging buffers, the output's staging buffer and the feature scratch at anything, it
   ends with the inputs as they were, the scratch at something, and the output block at one closed
   function of the input blocks: the feature tile laid into the scratch by its three column bands, read
   back whole, and pushed through the two dense layers. -/
import proofs.«411783_j76836964926031_3_alg».proof.Proof.Gen.Kernel.Launch
import proofs.«411783_j76836964926031_3_alg».proof.Proof.Gen.Kernel.Skeleton
import proofs.«411783_j76836964926031_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev rIn : Rect S1x128x64 := Rect.unit (s := S1x128x64) ![0, 0, 0] S1x128x64.size inb_S1x128x64_S1x128x64_0_0_0
abbrev rBand0 : Rect S128x128x384 := Rect.unit (s := S128x128x384) ![0, 0, 0] S128x128x128.size inb_S128x128x384_S128x128x128_0_0_0
abbrev rBand1 : Rect S128x128x384 := Rect.unit (s := S128x128x384) ![0, 0, 128] S128x128x128.size inb_S128x128x384_S128x128x128_0_0_128
abbrev rBand2 : Rect S128x128x384 := Rect.unit (s := S128x128x384) ![0, 0, 256] S128x128x128.size inb_S128x128x384_S128x128x128_0_0_256
abbrev rFeat : Rect S128x128x384 := Rect.unit (s := S128x128x384) ![0, 0, 0] S128x128x384.size inb_S128x128x384_S128x128x384_0_0_0
abbrev rW1 : Rect S128x384 := Rect.unit (s := S128x384) ![0, 0] S128x384.size inb_S128x384_S128x384_0_0
abbrev rB1 : Rect S128 := Rect.unit (s := S128) ![0] S128.size inb_S128_S128_0
abbrev rW2 : Rect S1x128 := Rect.unit (s := S1x128) ![0, 0] S1x128.size inb_S1x128_S1x128_0_0
abbrev rB2 : Rect S1 := Rect.unit (s := S1) ![0] S1.size inb_S1_S1_0
abbrev rOut : Rect S1x128x128x1 := Rect.unit (s := S1x128x128x1) ![0, 0, 0, 0] S1x128x128x1.size inb_S1x128x128x1_S1x128x128x1_0_0_0_0

/-! ## The feature tile and the output block -/

/-- The three column bands the body stores into the feature scratch, last store first: columns 256–383
    (the neighbours below-left, masked), 128–255 (the neighbours above-right, masked), 0–127 (the pair itself). -/
def featPieces (i : grid0.Coords) (x0 x1 x2 x3 x4 x5 : Vec F S1x128x64 .f32) : List (View.Piece (Elt F) S128x128x384 .bf16) :=
  [⟨rBand2, k0_pay14 (k0_pay6 (View.ld x4 rIn)) (k0_pay7 (View.ld x5 rIn)) (k0_pay9 i) (k0_pay11 i) 1#32⟩,
   ⟨rBand1, k0_pay13 (k0_pay4 (View.ld x2 rIn)) (k0_pay5 (View.ld x3 rIn)) (k0_pay10 i)⟩,
   ⟨rBand0, k0_pay12 (k0_pay2 (View.ld x0 rIn)) (k0_pay3 (View.ld x1 rIn))⟩]

/-- The feature tile [128, 128, 384] the scratch holds once the three bands are stored. -/
def featTile (i : grid0.Coords) (x0 x1 x2 x3 x4 x5 : Vec F S1x128x64 .f32) : Vec F S128x128x384 .bf16 :=
  View.canon (featPieces i x0 x1 x2 x3 x4 x5)

/-- The output block [1, 128, 128, 1]: the feature tile through both dense layers. -/
def outBlk (i : grid0.Coords) (x0 x1 x2 x3 x4 x5 : Vec F S1x128x64 .f32) (x6 : Vec F S128x384 .f32) (x7 : Vec F S128 .f32) (x8 : Vec F S1x128 .f32) (x9 : Vec F S1 .f32) : Vec F S1x128x128x1 .f32 :=
  View.canon [⟨rOut, k0_pay1 (View.ld (featTile i x0 x1 x2 x3 x4 x5) rFeat) (View.ld x6 rW1) (View.ld x7 rB1) (View.ld x8 rW2) (View.ld x9 rB2)⟩]

/-- The one store into the output buffer covers it. -/
theorem coverOut (p0 : Vec F S1x128x128x1 .f32) (y : S1x128x128x1.Idx) :
    ∃ pc ∈ ([⟨rOut, p0⟩] : List (View.Piece (Elt F) S1x128x128x1 .f32)), y ∈ pc.1.set :=
  View.cover_of_tiled [⟨rOut, p0⟩] S1x128x128x1.size (by rfl) y

/-! ## The body's triple -/

set_option maxHeartbeats 2000000 in
/-- The body on whole staging memrefs: inputs at read contents `x0 … x9`, the output's buffer and the
    scratch at anything; it runs to the continuation with the inputs as they were, the output at `outBlk`
    and the scratch at something. -/
theorem sound_kernel (c : Dev nD) (E : Set ℕ) (i : grid0.Coords) (arg3 : Memref sig .tc .vmem S1x128x64 .f32) (harg3 : arg3.IsWhole) (arg4 : Memref sig .tc .vmem S1x128x64 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x384 .f32) (harg9 : arg9.IsWhole) (arg10 : Memref sig .tc .vmem S128 .f32) (harg10 : arg10.IsWhole) (arg11 : Memref sig .tc .vmem S1x128 .f32) (harg11 : arg11.IsWhole) (arg12 : Memref sig .tc .vmem S1 .f32) (harg12 : arg12.IsWhole) (arg13 : Memref sig .tc .vmem S1x128x128x1 .f32) (harg13 : arg13.IsWhole) (arg14 : Memref sig .tc .vmem S128x128x384 .bf16) (harg14 : arg14.IsWhole)
    (x0 x1 x2 x3 x4 x5 : Vec F S1x128x64 .f32) (x6 : Vec F S128x384 .f32) (x7 : Vec F S128 .f32) (x8 : Vec F S1x128 .f32) (x9 : Vec F S1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (outBlk i x0 x1 x2 x3 x4 x5 x6 x7 x8 x9) ∗ (∃ d, owns (c : Thread nD τ) arg14 fullShare d)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (coverOut _)]
    sl_unfold_run_names
    unfold outBlk featTile featPieces
    rw [View.readCov_eq_canon']
    rfl
  · iexists _; iexists _; isplitr
    swap; · iexact H11
    ipureintro; rfl

end Cert.Kernel.Hand

end
-- ==== Proof.KDats.lean ====
/- The region's setting: what each buffer holds when the one pallas_call is entered (the two shifted,
   zero-padded copies of x have been made by then), each window's block at a grid point, and the proof
   data of the pipeline: every input window keeps its block, the output window ends at the body's output
   block. The array x feeds two windows, and so does each shifted copy; each of the two windows on one
   array holds half of it (the left and the right half share). -/
import proofs.«411783_j76836964926031_3_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the four stretches of host operations
    (slice, zero, pad; twice). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main up to the region: the four stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The pipeline's proof data on core `c`: the arrays as the region finds them; after the body at point `t`
    each input's buffer at its block and the output's at the output block of the ten input blocks; the
    invariant the scratch and the generator register at anything; nothing owed; of the two windows on one
    array each holds one half share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk (grid0.coords t) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := match w with
    | ⟨0, _⟩ => fullShare.left
    | ⟨1, _⟩ => fullShare.right
    | ⟨2, _⟩ => fullShare.left
    | ⟨3, _⟩ => fullShare.left
    | ⟨4, _⟩ => fullShare.right
    | ⟨5, _⟩ => fullShare.right
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outBlk (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]

end Cert.Kernel.Hand

end
-- ==== Proof.KLaunch.lean ====
/- The launch: each input window's staging buffer holds that window's block at every grid point, the body's
   triple is the pipeline's obligation at every point, the arrays' buffers split among the windows that
   share them, and from these the run of @main: it ends, faults nowhere, every window's array at what
   the write-backs make of it and every other buffer as the region found it. -/
import proofs.«411783_j76836964926031_3_alg».proof.Proof.KDats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block, fetched at the point or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-! ## The body obligation -/

/-- The class invariant with the scratch as a whole memref owned at some contents. -/
private theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: each input's buffer holds its block, so the body's triple applies; the scratch comes out
    of the invariant at anything and goes back at something; the generator register and what the core owes pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hs]; · iexact Hs
  iintro ⟨H0, H1, H2, H3, H4, H5, H6, H7, H8, H9, H10, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' buffers dealt to the windows -/

/-- The buffers behind the windows' arrays, one by one: x, the two shifted copies, the four parameters, the result. -/
private theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v1) ↦{fullShare} V m c main_v1) ∗ (((c.tc : Thread nD τ).loc main_v3) ↦{fullShare} V m c main_v3) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_v4) ↦{fullShare} V m c main_v4)) := by
  unfold Pipeline.arrBufs
  exact bigSep_eq_bigSepL_of_eq [main_arg0, main_v1, main_v3, main_arg1, main_arg2, main_arg3, main_arg4, main_v4] (by decide) (by decide) _

/-- Window `w`'s array at entry, held at the window's share: its whole buffer's points-to at the region-entry contents. -/
private theorem arr_cell (c : Dev nD) (w : Fin cfg0.W) {b : Ref sig .tc} {q : PosShare TreeShare}
    (hb : Pipeline.arrRef spec0 w = b) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc b) ↦{q} V m c b) := by
  subst hb hq
  rw [show (cfg0.win w).arr.view.set = Finset.univ from (arr_whole0 w).set_eq_univ]
  rfl

/-- The eight distinct buffers behind the eleven windows' arrays, each whole at the full share, make the
    proof data's arrays: x, and each shifted copy, halved between its two windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [bigSep_W0]
  rw [arr_cell m c 0 (b := main_arg0) (q := fullShare.left) rfl rfl,
    arr_cell m c 1 (b := main_arg0) (q := fullShare.right) rfl rfl,
    arr_cell m c 2 (b := main_v1) (q := fullShare.left) rfl rfl,
    arr_cell m c 3 (b := main_v3) (q := fullShare.left) rfl rfl,
    arr_cell m c 4 (b := main_v3) (q := fullShare.right) rfl rfl,
    arr_cell m c 5 (b := main_v1) (q := fullShare.right) rfl rfl,
    arr_cell m c 6 (b := main_arg1) (q := fullShare) rfl rfl,
    arr_cell m c 7 (b := main_arg2) (q := fullShare) rfl rfl,
    arr_cell m c 8 (b := main_arg3) (q := fullShare) rfl rfl,
    arr_cell m c 9 (b := main_arg4) (q := fullShare) rfl rfl,
    arr_cell m c 10 (b := main_v4) (q := fullShare) rfl rfl]
  iintro ⟨Hx, Hv1, Hv3, H6, H7, H8, H9, H10⟩
  -- x is read by windows 0 and 1, the first shifted copy by windows 2 and 5, the second by windows 3 and 4: each halved
  ihave Hx' := (pointsTo_share (PosShare.mem_left_op_right fullShare)).1 $$ Hx
  icases Hx' with ⟨H0, H1⟩
  ihave Hv1' := (pointsTo_share (PosShare.mem_left_op_right fullShare)).1 $$ Hv1
  icases Hv1' with ⟨H2, H5⟩
  ihave Hv3' := (pointsTo_share (PosShare.mem_left_op_right fullShare)).1 $$ Hv3
  icases Hv3' with ⟨H3, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The run and the frame -/

-- the launch theorem's implicit arguments are found by unifying its conclusion with this one, which takes unfolding
-- plain definitions in a metavariable's type
set_option backward.isDefEq.respectTransparency.types false in
/-- Every weakly fair execution of @main terminates, and every final state has every window's array at
    what the library computes from the proof data and every other unscoped buffer as the region found it. -/
theorem run_main : θ_run defs (onTc (τ := τ) (main (F := F))) (s₀ m ρ) (Pipeline.FramePost cfgs (dats m) 0 (V m)) := by
  classical
  exact Pipeline.θ_run_region_pf (fun p => (cfgs p).toPCfg (Val := Elt F)) (fun p => (cfgs p).toPCfg_adm) (dats m) () cellOf_inj (0 : Fin 1)
    winFacts₀0 (Pipeline.OwnSemFacts.none spec0) (Pipeline.PreFacts.none _) emb₁ defs₀ Variants.none m ρ main
    (hbody := fun c => (body_obligation m c).loose)
    (hne := block_pos0) (harr := arr_whole0) (hstage := stage_whole0) (howed := fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) ((cfgs 0).toPCfg (Val := Elt F)).pre spec0 c (V m c))
    (hX := fun c => by
      -- of what the launch leaves beside the arrays, the generator register goes to the invariant and the
      -- buffers that bypass the region are kept for the end
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      rw [Pipeline.ownSems0_none]
      show Pipeline.ΦA spec0 c ⊢ _
      unfold Pipeline.ΦA
      iintro ⟨Hr, Hp⟩
      isplitl [Hp]; · iexact Hp
      isplitr; · iempintro
      iexact Hr)
    (QY := fun c s => ∀ b ∈ Pipeline.restRefsP sig ((cfgs 0).toPCfg (Val := Elt F)).pre spec0, s.mem ((c.tc : Thread nD τ).loc b) = V m c b)
    (hY := fun c s' => by
      iintro ⟨-, HU, HSI⟩
      unfold Pipeline.unscopedRestP
      imodintro
      iapply (pointsTo_read_all (Pipeline.restRefsP sig ((cfgs 0).toPCfg (Val := Elt F)).pre spec0) (fun b => (c.tc : Thread nD τ).loc b) (V m c) s')
      isplitl [HU] <;> iassumption)
    (hQ := fun s h c => ⟨fun w => (h c).1 w,
      Pipeline.rest_of_restP ((cfgs 0).toPCfg (Val := Elt F)).pre spec0 _ c (V m c) s (fun k => k.elim0) (h c).2.1 (h c).2.2⟩)

/-- The frame: @main runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  -- x is window 0's array and the four parameters windows 6 to 9's: inputs, so at the end what the region found, which
  -- no host operation before it had written
  (θ_run defs _ _).mono (fun _ h c =>
    ⟨((h c).1 0).trans (((dats m 0 c).arrAt_in 0 rfl _).trans ((A_eq m c 0).trans (V_main_arg0 m c))),
      ((h c).1 6).trans (((dats m 0 c).arrAt_in 6 rfl _).trans ((A_eq m c 6).trans (V_main_arg1 m c))),
      ((h c).1 7).trans (((dats m 0 c).arrAt_in 7 rfl _).trans ((A_eq m c 7).trans (V_main_arg2 m c))),
      ((h c).1 8).trans (((dats m 0 c).arrAt_in 8 rfl _).trans ((A_eq m c 8).trans (V_main_arg3 m c))),
      ((h c).1 9).trans (((dats m 0 c).arrAt_in 9 rfl _).trans ((A_eq m c 9).trans (V_main_arg4 m c)))⟩) (run_main m ρ)

end Cert.Kernel.Hand

end
-- ==== Proof.KIBody.lean ====
/- What the kernel body does at one grid point, as a triple of the program logic: handed the ten input
   blocks in their staging buffers, the output's staging buffer and the feature scratch at anything, it
   ends with the inputs as they were, the scratch at something, and the output block at one closed
   function of the input blocks: the feature tile laid into the scratch by its three column bands, read
   back whole, and pushed through the two dense layers. -/
import proofs.«411783_j76836964926031_3_alg».proof.Proof.Gen.KernelIdeal.Launch
import proofs.«411783_j76836964926031_3_alg».proof.Proof.Gen.KernelIdeal.Skeleton
import proofs.«411783_j76836964926031_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev rIn : Rect S1x128x64 := Rect.unit (s := S1x128x64) ![0, 0, 0] S1x128x64.size inb_S1x128x64_S1x128x64_0_0_0
abbrev rBand0 : Rect S128x128x384 := Rect.unit (s := S128x128x384) ![0, 0, 0] S128x128x128.size inb_S128x128x384_S128x128x128_0_0_0
abbrev rBand1 : Rect S128x128x384 := Rect.unit (s := S128x128x384) ![0, 0, 128] S128x128x128.size inb_S128x128x384_S128x128x128_0_0_128
abbrev rBand2 : Rect S128x128x384 := Rect.unit (s := S128x128x384) ![0, 0, 256] S128x128x128.size inb_S128x128x384_S128x128x128_0_0_256
abbrev rFeat : Rect S128x128x384 := Rect.unit (s := S128x128x384) ![0, 0, 0] S128x128x384.size inb_S128x128x384_S128x128x384_0_0_0
abbrev rW1 : Rect S128x384 := Rect.unit (s := S128x384) ![0, 0] S128x384.size inb_S128x384_S128x384_0_0
abbrev rB1 : Rect S128 := Rect.unit (s := S128) ![0] S128.size inb_S128_S128_0
abbrev rW2 : Rect S1x128 := Rect.unit (s := S1x128) ![0, 0] S1x128.size inb_S1x128_S1x128_0_0
abbrev rB2 : Rect S1 := Rect.unit (s := S1) ![0] S1.size inb_S1_S1_0
abbrev rOut : Rect S1x128x128x1 := Rect.unit (s := S1x128x128x1) ![0, 0, 0, 0] S1x128x128x1.size inb_S1x128x128x1_S1x128x128x1_0_0_0_0

/-! ## The feature tile and the output block -/

/-- The three column bands the body stores into the feature scratch, last store first: columns 256–383
    (the neighbours below-left, masked), 128–255 (the neighbours above-right, masked), 0–127 (the pair itself). -/
def featPieces (i : grid0.Coords) (x0 x1 x2 x3 x4 x5 : Vec F S1x128x64 .f32) : List (View.Piece (Elt F) S128x128x384 .bf16) :=
  [⟨rBand2, k0_pay14 (k0_pay6 (View.ld x4 rIn)) (k0_pay7 (View.ld x5 rIn)) (k0_pay9 i) (k0_pay11 i) 1#32⟩,
   ⟨rBand1, k0_pay13 (k0_pay4 (View.ld x2 rIn)) (k0_pay5 (View.ld x3 rIn)) (k0_pay10 i)⟩,
   ⟨rBand0, k0_pay12 (k0_pay2 (View.ld x0 rIn)) (k0_pay3 (View.ld x1 rIn))⟩]

/-- The feature tile [128, 128, 384] the scratch holds once the three bands are stored. -/
def featTile (i : grid0.Coords) (x0 x1 x2 x3 x4 x5 : Vec F S1x128x64 .f32) : Vec F S128x128x384 .bf16 :=
  View.canon (featPieces i x0 x1 x2 x3 x4 x5)

/-- The output block [1, 128, 128, 1]: the feature tile through both dense layers. -/
def outBlk (i : grid0.Coords) (x0 x1 x2 x3 x4 x5 : Vec F S1x128x64 .f32) (x6 : Vec F S128x384 .f32) (x7 : Vec F S128 .f32) (x8 : Vec F S1x128 .f32) (x9 : Vec F S1 .f32) : Vec F S1x128x128x1 .f32 :=
  View.canon [⟨rOut, k0_pay1 (View.ld (featTile i x0 x1 x2 x3 x4 x5) rFeat) (View.ld x6 rW1) (View.ld x7 rB1) (View.ld x8 rW2) (View.ld x9 rB2)⟩]

/-- The one store into the output buffer covers it. -/
theorem coverOut (p0 : Vec F S1x128x128x1 .f32) (y : S1x128x128x1.Idx) :
    ∃ pc ∈ ([⟨rOut, p0⟩] : List (View.Piece (Elt F) S1x128x128x1 .f32)), y ∈ pc.1.set :=
  View.cover_of_tiled [⟨rOut, p0⟩] S1x128x128x1.size (by rfl) y

/-! ## The body's triple -/

set_option maxHeartbeats 2000000 in
/-- The body on whole staging memrefs: inputs at read contents `x0 … x9`, the output's buffer and the
    scratch at anything; it runs to the continuation with the inputs as they were, the output at `outBlk`
    and the scratch at something. -/
theorem sound_kernel (c : Dev nD) (E : Set ℕ) (i : grid0.Coords) (arg3 : Memref sig .tc .vmem S1x128x64 .f32) (harg3 : arg3.IsWhole) (arg4 : Memref sig .tc .vmem S1x128x64 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x384 .f32) (harg9 : arg9.IsWhole) (arg10 : Memref sig .tc .vmem S128 .f32) (harg10 : arg10.IsWhole) (arg11 : Memref sig .tc .vmem S1x128 .f32) (harg11 : arg11.IsWhole) (arg12 : Memref sig .tc .vmem S1 .f32) (harg12 : arg12.IsWhole) (arg13 : Memref sig .tc .vmem S1x128x128x1 .f32) (harg13 : arg13.IsWhole) (arg14 : Memref sig .tc .vmem S128x128x384 .bf16) (harg14 : arg14.IsWhole)
    (x0 x1 x2 x3 x4 x5 : Vec F S1x128x64 .f32) (x6 : Vec F S128x384 .f32) (x7 : Vec F S128 .f32) (x8 : Vec F S1x128 .f32) (x9 : Vec F S1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (outBlk i x0 x1 x2 x3 x4 x5 x6 x7 x8 x9) ∗ (∃ d, owns (c : Thread nD τ) arg14 fullShare d)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [View.read_writes_eq_canon _ _ _ (coverOut _)]
    sl_unfold_run_names
    unfold outBlk featTile featPieces
    rw [View.readCov_eq_canon']
    rfl
  · iexists _; iexists _; isplitr
    swap; · iexact H11
    ipureintro; rfl

end Cert.KernelIdeal.Hand

end
-- ==== Proof.KIDats.lean ====
/- The region's setting: what each buffer holds when the one pallas_call is entered (the two shifted,
   zero-padded copies of x have been made by then), each window's block at a grid point, and the proof
   data of the pipeline: every input window keeps its block, the output window ends at the body's output
   block. The array x feeds two windows, and so does each shifted copy; each of the two windows on one
   array holds half of it (the left and the right half share). -/
import proofs.«411783_j76836964926031_3_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the four stretches of host operations
    (slice, zero, pad; twice). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- @main up to the region: the four stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.binary, StableHlo.TRef.of, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The pipeline's proof data on core `c`: the arrays as the region finds them; after the body at point `t`
    each input's buffer at its block and the output's at the output block of the ten input blocks; the
    invariant the scratch and the generator register at anything; nothing owed; of the two windows on one
    array each holds one half share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk (grid0.coords t) (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := match w with
    | ⟨0, _⟩ => fullShare.left
    | ⟨1, _⟩ => fullShare.right
    | ⟨2, _⟩ => fullShare.left
    | ⟨3, _⟩ => fullShare.left
    | ⟨4, _⟩ => fullShare.right
    | ⟨5, _⟩ => fullShare.right
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outBlk (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]

end Cert.KernelIdeal.Hand

end
-- ==== Proof.KILaunch.lean ====
/- The launch: each input window's staging buffer holds that window's block at every grid point, the body's
   triple is the pipeline's obligation at every point, the arrays' buffers split among the windows that
   share them, and from these the run of @main: it ends, faults nowhere, every window's array at what
   the write-backs make of it and every other buffer as the region found it. -/
import proofs.«411783_j76836964926031_3_alg».proof.Proof.KIDats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block, fetched at the point or not -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)

/-! ## The body obligation -/

/-- The class invariant with the scratch as a whole memref owned at some contents. -/
private theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: each input's buffer holds its block, so the body's triple applies; the scratch comes out
    of the invariant at anything and goes back at something; the generator register and what the core owes pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [Hs]; · iexact Hs
  iintro ⟨H0, H1, H2, H3, H4, H5, H6, H7, H8, H9, H10, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays' buffers dealt to the windows -/

/-- The buffers behind the windows' arrays, one by one: x, the two shifted copies, the four parameters, the result. -/
private theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v1) ↦{fullShare} V m c main_v1) ∗ (((c.tc : Thread nD τ).loc main_v3) ↦{fullShare} V m c main_v3) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_v4) ↦{fullShare} V m c main_v4)) := by
  unfold Pipeline.arrBufs
  exact bigSep_eq_bigSepL_of_eq [main_arg0, main_v1, main_v3, main_arg1, main_arg2, main_arg3, main_arg4, main_v4] (by decide) (by decide) _

/-- Window `w`'s array at entry, held at the window's share: its whole buffer's points-to at the region-entry contents. -/
private theorem arr_cell (c : Dev nD) (w : Fin cfg0.W) {b : Ref sig .tc} {q : PosShare TreeShare}
    (hb : Pipeline.arrRef spec0 w = b) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc b) ↦{q} V m c b) := by
  subst hb hq
  rw [show (cfg0.win w).arr.view.set = Finset.univ from (arr_whole0 w).set_eq_univ]
  rfl

/-- The eight distinct buffers behind the eleven windows' arrays, each whole at the full share, make the
    proof data's arrays: x, and each shifted copy, halved between its two windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [bigSep_W0]
  rw [arr_cell m c 0 (b := main_arg0) (q := fullShare.left) rfl rfl,
    arr_cell m c 1 (b := main_arg0) (q := fullShare.right) rfl rfl,
    arr_cell m c 2 (b := main_v1) (q := fullShare.left) rfl rfl,
    arr_cell m c 3 (b := main_v3) (q := fullShare.left) rfl rfl,
    arr_cell m c 4 (b := main_v3) (q := fullShare.right) rfl rfl,
    arr_cell m c 5 (b := main_v1) (q := fullShare.right) rfl rfl,
    arr_cell m c 6 (b := main_arg1) (q := fullShare) rfl rfl,
    arr_cell m c 7 (b := main_arg2) (q := fullShare) rfl rfl,
    arr_cell m c 8 (b := main_arg3) (q := fullShare) rfl rfl,
    arr_cell m c 9 (b := main_arg4) (q := fullShare) rfl rfl,
    arr_cell m c 10 (b := main_v4) (q := fullShare) rfl rfl]
  iintro ⟨Hx, Hv1, Hv3, H6, H7, H8, H9, H10⟩
  -- x is read by windows 0 and 1, the first shifted copy by windows 2 and 5, the second by windows 3 and 4: each halved
  ihave Hx' := (pointsTo_share (PosShare.mem_left_op_right fullShare)).1 $$ Hx
  icases Hx' with ⟨H0, H1⟩
  ihave Hv1' := (pointsTo_share (PosShare.mem_left_op_right fullShare)).1 $$ Hv1
  icases Hv1' with ⟨H2, H5⟩
  ihave Hv3' := (pointsTo_share (PosShare.mem_left_op_right fullShare)).1 $$ Hv3
  icases Hv3' with ⟨H3, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The run and the frame -/

-- the launch theorem's implicit arguments are found by unifying its conclusion with this one, which takes unfolding
-- plain definitions in a metavariable's type
set_option backward.isDefEq.respectTransparency.types false in
/-- Every weakly fair execution of @main terminates, and every final state has every window's array at
    what the library computes from the proof data and every other unscoped buffer as the region found it. -/
theorem run_main : θ_run defs (onTc (τ := τ) (main (F := F))) (s₀ m ρ) (Pipeline.FramePost cfgs (dats m) 0 (V m)) := by
  classical
  exact Pipeline.θ_run_region_pf (fun p => (cfgs p).toPCfg (Val := Elt F)) (fun p => (cfgs p).toPCfg_adm) (dats m) () cellOf_inj (0 : Fin 1)
    winFacts₀0 (Pipeline.OwnSemFacts.none spec0) (Pipeline.PreFacts.none _) emb₁ defs₀ Variants.none m ρ main
    (hbody := fun c => (body_obligation m c).loose)
    (hne := block_pos0) (harr := arr_whole0) (hstage := stage_whole0) (howed := fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) ((cfgs 0).toPCfg (Val := Elt F)).pre spec0 c (V m c))
    (hX := fun c => by
      -- of what the launch leaves beside the arrays, the generator register goes to the invariant and the
      -- buffers that bypass the region are kept for the end
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      rw [Pipeline.ownSems0_none]
      show Pipeline.ΦA spec0 c ⊢ _
      unfold Pipeline.ΦA
      iintro ⟨Hr, Hp⟩
      isplitl [Hp]; · iexact Hp
      isplitr; · iempintro
      iexact Hr)
    (QY := fun c s => ∀ b ∈ Pipeline.restRefsP sig ((cfgs 0).toPCfg (Val := Elt F)).pre spec0, s.mem ((c.tc : Thread nD τ).loc b) = V m c b)
    (hY := fun c s' => by
      iintro ⟨-, HU, HSI⟩
      unfold Pipeline.unscopedRestP
      imodintro
      iapply (pointsTo_read_all (Pipeline.restRefsP sig ((cfgs 0).toPCfg (Val := Elt F)).pre spec0) (fun b => (c.tc : Thread nD τ).loc b) (V m c) s')
      isplitl [HU] <;> iassumption)
    (hQ := fun s h c => ⟨fun w => (h c).1 w,
      Pipeline.rest_of_restP ((cfgs 0).toPCfg (Val := Elt F)).pre spec0 _ c (V m c) s (fun k => k.elim0) (h c).2.1 (h c).2.2⟩)

/-- The frame: @main runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  -- x is window 0's array and the four parameters windows 6 to 9's: inputs, so at the end what the region found, which
  -- no host operation before it had written
  (θ_run defs _ _).mono (fun _ h c =>
    ⟨((h c).1 0).trans (((dats m 0 c).arrAt_in 0 rfl _).trans ((A_eq m c 0).trans (V_main_arg0 m c))),
      ((h c).1 6).trans (((dats m 0 c).arrAt_in 6 rfl _).trans ((A_eq m c 6).trans (V_main_arg1 m c))),
      ((h c).1 7).trans (((dats m 0 c).arrAt_in 7 rfl _).trans ((A_eq m c 7).trans (V_main_arg2 m c))),
      ((h c).1 8).trans (((dats m 0 c).arrAt_in 8 rfl _).trans ((A_eq m c 8).trans (V_main_arg3 m c))),
      ((h c).1 9).trans (((dats m 0 c).arrAt_in 9 rfl _).trans ((A_eq m c 9).trans (V_main_arg4 m c)))⟩) (run_main m ρ)

end Cert.KernelIdeal.Hand

end
-- ==== Proof.Spec.lean ====
/- The function both programs compute, over the extended reals, index by index.
   For a batch b and a pair of positions (i, j) the 384 features are the pair itself (x[b,i,:], x[b,j,:]),
   the pair one step up and to the right (x[b,i-1,:], x[b,j+1,:]), kept only where i ≥ 1 and j ≤ 382, and
   the pair one step down and to the left (x[b,i+1,:], x[b,j-1,:]), kept only where i ≤ 382 and j ≥ 1;
   dropped features are zero. The features go through a dense layer into 128 hidden units with a bias
   and a maximum against zero, and through a second dense layer into one output with a bias. -/
import Idealize.ShloMosaic.PureOps.Ideal
import Idealize.ShloMosaic.Lib.ValueIdx

noncomputable section

open scoped BigOperators

namespace Cert.Spec

open Idealize.ShloMosaic Idealize.ShloMosaic.ValueIdx

/-- Entry (b, r, c) of the [2, 384, 64] array, by natural-number coordinates; zero off the array. -/
def xAt (x : (⟨3, ![2, 384, 64]⟩ : Shape).Idx → EReal) (b : Fin 2) (r c : Nat) : EReal :=
  if h : r < 384 ∧ c < 64 then x (ix3 b ⟨r, h.1⟩ ⟨c, h.2⟩) else 0

/-- The pair "one up, one right" exists: i ≥ 1 and j ≤ 382. -/
abbrev upOk (i j : Nat) : Prop := 1 ≤ i ∧ j ≤ 382
/-- The pair "one down, one left" exists: i ≤ 382 and j ≥ 1. -/
abbrev downOk (i j : Nat) : Prop := i ≤ 382 ∧ 1 ≤ j

/-- Feature k of the pair (i, j) in batch b, by natural-number positions. -/
def feat (x : (⟨3, ![2, 384, 64]⟩ : Shape).Idx → EReal) (b : Fin 2) (i j k : Nat) : EReal :=
  if k < 64 then xAt x b i k
  else if k < 128 then xAt x b j (k - 64)
  else if k < 192 then (if upOk i j then xAt x b (i - 1) (k - 128) else 0)
  else if k < 256 then (if upOk i j then xAt x b (j + 1) (k - 192) else 0)
  else if k < 320 then (if downOk i j then xAt x b (i + 1) (k - 256) else 0)
  else (if downOk i j then xAt x b (j - 1) (k - 320) else 0)

/-- Hidden unit h of the pair (i, j): the first dense layer, its bias, the maximum against zero. -/
def hidden (x : (⟨3, ![2, 384, 64]⟩ : Shape).Idx → EReal) (W1 : (⟨2, ![128, 384]⟩ : Shape).Idx → EReal)
    (b1 : (⟨1, ![128]⟩ : Shape).Idx → EReal) (b : Fin 2) (i j : Nat) (h : Fin 128) : EReal :=
  max ((∑ k : Fin 384, feat x b i j k.val * W1 (ix2 h k)) + b1 (ix1 h)) 0

/-- The output at the pair (i, j) of batch b. -/
def outAt (x : (⟨3, ![2, 384, 64]⟩ : Shape).Idx → EReal) (W1 : (⟨2, ![128, 384]⟩ : Shape).Idx → EReal)
    (b1 : (⟨1, ![128]⟩ : Shape).Idx → EReal) (W2 : (⟨2, ![1, 128]⟩ : Shape).Idx → EReal)
    (b2 : (⟨1, ![1]⟩ : Shape).Idx → EReal) (b : Fin 2) (i j : Nat) : EReal :=
  (∑ h : Fin 128, hidden x W1 b1 b i j h * W2 (ix2 0 h)) + b2 (ix1 0)

/-- The whole result [2, 384, 384, 1]. -/
def G (x : (⟨3, ![2, 384, 64]⟩ : Shape).Idx → EReal) (W1 : (⟨2, ![128, 384]⟩ : Shape).Idx → EReal)
    (b1 : (⟨1, ![128]⟩ : Shape).Idx → EReal) (W2 : (⟨2, ![1, 128]⟩ : Shape).Idx → EReal)
    (b2 : (⟨1, ![1]⟩ : Shape).Idx → EReal) : (⟨4, ![2, 384, 384, 1]⟩ : Shape).Idx → EReal :=
  fun idx => outAt x W1 b1 W2 b2 ⟨(idx 0).val, (idx 0).isLt⟩ (idx 1).val (idx 2).val

end Cert.Spec

end
-- ==== Proof.KIPayload.lean ====
/- The output block at one of its entries, over the extended reals: entry (p, q) of the [1, 128, 128, 1]
   block the body stores is the second dense layer of the maximum against zero of the first dense layer
   of the 384 features of the pair (p, q), the features read off the six [1, 128, 64] input blocks and the
   masked ones kept exactly where the point's two position masks hold. -/
import proofs.«411783_j76836964926031_3_alg».proof.Proof.KIBody
import proofs.«411783_j76836964926031_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- Entry (r, c) of a [1, 128, 64] block by natural-number coordinates; zero off the block. -/
def blkAt (xw : Vec Ideal S1x128x64 .f32) (r c : Nat) : EReal :=
  if h : r < 128 ∧ c < 64 then xw (ix3 0 ⟨r, h.1⟩ ⟨c, h.2⟩) else 0

/-- Feature k of the pair (p, q) of the tile at grid point i, read off the six input blocks: positions
    of the pair in the whole arrays are 128·i₁ + p and 128·i₂ + q. -/
def featBlk (i : grid0.Coords) (x0 x1 x2 x3 x4 x5 : Vec Ideal S1x128x64 .f32) (p q k : Nat) : EReal :=
  if k < 64 then blkAt x0 p k
  else if k < 128 then blkAt x1 q (k - 64)
  else if k < 192 then (if Cert.Spec.upOk (128 * (i 1).val + p) (128 * (i 2).val + q) then blkAt x2 p (k - 128) else 0)
  else if k < 256 then (if Cert.Spec.upOk (128 * (i 1).val + p) (128 * (i 2).val + q) then blkAt x3 q (k - 192) else 0)
  else if k < 320 then (if Cert.Spec.downOk (128 * (i 1).val + p) (128 * (i 2).val + q) then blkAt x4 p (k - 256) else 0)
  else (if Cert.Spec.downOk (128 * (i 1).val + p) (128 * (i 2).val + q) then blkAt x5 q (k - 320) else 0)

/-! ## The position masks, on 32-bit words -/

/-- A small natural number as a 32-bit word reads back, signed, as itself. -/
private theorem toInt_ofNat_small (n : Nat) (hn : n < 1000) : (BitVec.ofNat 32 n).toInt = (n : Int) := by
  have h : (BitVec.ofNat 32 n).toNat = n := by rw [BitVec.toNat_ofNat]; omega
  rw [BitVec.toInt_eq_toNat_of_lt (by rw [h]; omega), h]

/-- Block offset 128·a plus the coordinate inside the block, computed on 32-bit words, is the word of the sum. -/
private theorem word_eq (a : Nat) (ha : a < 3) (p : Fin 128) :
    IntOp.addi (Scalar.muli (BitVec.ofNat 32 a) 128#32) (BitVec.ofNat 32 p.val) = BitVec.ofNat 32 (128 * a + p.val) := by
  apply BitVec.eq_of_toNat_eq
  simp only [IntOp.addi, Scalar.muli, IntOp.muli, BitVec.toNat_add, BitVec.toNat_mul, BitVec.toNat_ofNat]
  have := p.isLt
  omega

/-- The signed test "at least one" on the word of a small number. -/
private theorem sge_one (n : Nat) (hn : n < 1000) : IntOp.cmpi .sge (BitVec.ofNat 32 n) 1#32 = if 1 ≤ n then 1#1 else 0#1 := by
  unfold IntOp.cmpi
  simp only [BitVec.sle, toInt_ofNat_small n hn]
  have e : (1#32 : BitVec 32).toInt = 1 := by decide
  rw [e]
  by_cases h : 1 ≤ n
  · rw [if_pos h, decide_eq_true (by omega)]; rfl
  · rw [if_neg h, decide_eq_false (by omega)]; rfl

/-- The signed test "at most 382" on the word of a small number. -/
private theorem sle_382 (n : Nat) (hn : n < 1000) : IntOp.cmpi .sle (BitVec.ofNat 32 n) 382#32 = if n ≤ 382 then 1#1 else 0#1 := by
  unfold IntOp.cmpi
  simp only [BitVec.sle, toInt_ofNat_small n hn]
  have e : (382#32 : BitVec 32).toInt = 382 := by decide
  rw [e]
  by_cases h : n ≤ 382
  · rw [if_pos h, decide_eq_true (by omega)]; rfl
  · rw [if_neg h, decide_eq_false (by omega)]; rfl

/-- The conjunction of two mask bits is the bit of the conjunction. -/
private theorem andi_bits (c d : Prop) [Decidable c] [Decidable d] :
    IntOp.andi (if c then 1#1 else 0#1) (if d then 1#1 else 0#1) = if c ∧ d then 1#1 else 0#1 := by
  by_cases hc : c <;> by_cases hd : d <;> simp [hc, hd, IntOp.andi]

/-- A mask bit widened to 32 bits and read as a float is the number one or zero. -/
private theorem sitofp_bit (c : Prop) [Decidable c] :
    FloatOps.sitofp (F := Ideal) .f32 ((if c then 1#1 else 0#1 : BitVec 1).setWidth 32) = if c then (1 : EReal) else 0 := by
  split
  · show ((((1#1 : BitVec 1).setWidth 32).toInt : ℝ) : EReal) = (1 : EReal)
    have e : ((1#1 : BitVec 1).setWidth 32).toInt = 1 := by decide
    rw [e, Int.cast_one, EReal.coe_one]
  · show ((((0#1 : BitVec 1).setWidth 32).toInt : ℝ) : EReal) = (0 : EReal)
    have e : ((0#1 : BitVec 1).setWidth 32).toInt = 0 := by decide
    rw [e, Int.cast_zero, EReal.coe_zero]

/-! ## Layout operations of the feature bands, read at an index -/

section Layout
variable {α : Type}

/-- Two [128, 128, 64] halves joined along the last axis: a column below 64 reads the first half. -/
private theorem concatL_apply (A B : S128x128x64.Idx → α) (p q : Fin 128) (c : Fin 64) :
    concatenate S128x128x128 2 [⟨S128x128x64, A⟩, ⟨S128x128x64, B⟩] concatenates_S128x128x64_S128x128x64_S128x128x128_d2
      (ix3 p q (⟨c.val, by have := c.isLt; omega⟩ : Fin 128)) = A (ix3 p q c) :=
  concatenate_pair_apply_left (t := S128x128x128) 2 A B concatenates_S128x128x64_S128x128x64_S128x128x128_d2
    (ix3 p q (⟨c.val, by have := c.isLt; omega⟩ : Fin 128)) rfl (ix3 p q c) fun b => match b with
    | ⟨0, _⟩ => rfl
    | ⟨1, _⟩ => rfl
    | ⟨2, _⟩ => rfl

/-- A column from 64 on reads the second half, 64 columns back. -/
private theorem concatR_apply (A B : S128x128x64.Idx → α) (p q : Fin 128) (c : Fin 64) :
    concatenate S128x128x128 2 [⟨S128x128x64, A⟩, ⟨S128x128x64, B⟩] concatenates_S128x128x64_S128x128x64_S128x128x128_d2
      (ix3 p q (⟨64 + c.val, by have := c.isLt; omega⟩ : Fin 128)) = B (ix3 p q c) :=
  concatenate_pair_apply_right (t := S128x128x128) 2 A B concatenates_S128x128x64_S128x128x64_S128x128x128_d2
    (ix3 p q (⟨64 + c.val, by have := c.isLt; omega⟩ : Fin 128)) rfl rfl (ix3 p q c) (fun b hb => match b, hb with
    | ⟨0, _⟩, _ => rfl
    | ⟨1, _⟩, _ => rfl
    | ⟨2, _⟩, hb => absurd (Fin.ext rfl) hb) (by show c.val + 64 = 64 + c.val; omega)

/-- A [128, 64] block laid along axis 1 of [128, 128, 64]: entry (p, q, c) is entry (p, c). -/
private theorem rowBcast_apply (V : S128x64.Idx → α) (p q : Fin 128) (c : Fin 64) :
    broadcastTo S128x128x64 (shapeCast S128x1x64 V shapeCasts_S128x64_S128x1x64) broadcasts_S128x1x64_S128x128x64 (ix3 p q c) = V (ix2 p c) := by
  refine (broadcastTo_apply _ _ (ix3 p q c) (ix3 p (0 : Fin 1) c) fun a => ?_).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show c.val = if (64 : Nat) = 1 then 0 else c.val; rw [if_neg (by decide)]
  · exact shapeCast_apply V _ _ _ (by
      rw [Shape.rowMajor_val_two, Shape.rowMajor_val_three]
      show p.val * 64 + c.val = (p.val * 1 + 0) * 64 + c.val
      omega)

/-- A [128, 64] block laid along axis 0 of [128, 128, 64]: entry (p, q, c) is entry (q, c). -/
private theorem colBcast_apply (V : S128x64.Idx → α) (p q : Fin 128) (c : Fin 64) :
    broadcastTo S128x128x64 (shapeCast S1x128x64 V shapeCasts_S128x64_S1x128x64) broadcasts_S1x128x64_S128x128x64 (ix3 p q c) = V (ix2 q c) := by
  refine (broadcastTo_apply _ _ (ix3 p q c) (ix3 (0 : Fin 1) q c) fun a => ?_).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show c.val = if (64 : Nat) = 1 then 0 else c.val; rw [if_neg (by decide)]
  · exact shapeCast_ab_1ab_apply V _ 0 q c

/-- A [128, 128, 1] mask laid along the last axis: entry (p, q, c) is entry (p, q, 0). -/
private theorem maskBcast_apply (M : S128x128x1.Idx → α) (p q : Fin 128) (c : Fin 64) :
    broadcastTo S128x128x64 M broadcasts_S128x128x1_S128x128x64 (ix3 p q c) = M (ix3 p q (0 : Fin 1)) := by
  refine broadcastTo_apply _ _ (ix3 p q c) (ix3 p q (0 : Fin 1)) fun a => ?_
  match a with
  | ⟨0, _⟩ => show p.val = if (128 : Nat) = 1 then 0 else p.val; rw [if_neg (by decide)]
  | ⟨1, _⟩ => show q.val = if (128 : Nat) = 1 then 0 else q.val; rw [if_neg (by decide)]
  | ⟨2, _⟩ => show 0 = if (1 : Nat) = 1 then 0 else c.val; rw [if_pos rfl]

end Layout

/-! ## The six input blocks as [128, 64] matrices -/

private theorem pay2_apply (X : FVec Ideal S1x128x64 .f32) (r : Fin 128) (c : Fin 64) : k0_pay2 (F := Ideal) X (ix2 r c) = X (ix3 (0 : Fin 1) r c) := by
  unfold k0_pay2; exact shapeCast_1ab_ab_apply X _ r c
private theorem pay3_apply (X : FVec Ideal S1x128x64 .f32) (r : Fin 128) (c : Fin 64) : k0_pay3 (F := Ideal) X (ix2 r c) = X (ix3 (0 : Fin 1) r c) := by
  unfold k0_pay3; exact shapeCast_1ab_ab_apply X _ r c
private theorem pay4_apply (X : FVec Ideal S1x128x64 .f32) (r : Fin 128) (c : Fin 64) : k0_pay4 (F := Ideal) X (ix2 r c) = X (ix3 (0 : Fin 1) r c) := by
  unfold k0_pay4; exact shapeCast_1ab_ab_apply X _ r c
private theorem pay5_apply (X : FVec Ideal S1x128x64 .f32) (r : Fin 128) (c : Fin 64) : k0_pay5 (F := Ideal) X (ix2 r c) = X (ix3 (0 : Fin 1) r c) := by
  unfold k0_pay5; exact shapeCast_1ab_ab_apply X _ r c
private theorem pay6_apply (X : FVec Ideal S1x128x64 .f32) (r : Fin 128) (c : Fin 64) : k0_pay6 (F := Ideal) X (ix2 r c) = X (ix3 (0 : Fin 1) r c) := by
  unfold k0_pay6; exact shapeCast_1ab_ab_apply X _ r c
private theorem pay7_apply (X : FVec Ideal S1x128x64 .f32) (r : Fin 128) (c : Fin 64) : k0_pay7 (F := Ideal) X (ix2 r c) = X (ix3 (0 : Fin 1) r c) := by
  unfold k0_pay7; exact shapeCast_1ab_ab_apply X _ r c

/-! ## The three bands' payloads at an index -/

private theorem andi_apply {s : Shape} {w : Nat} (x y : IVec s w) (j : s.Idx) : andi x y j = IntOp.andi (x j) (y j) := rfl
private theorem addi_apply {s : Shape} {w : Nat} (x y : IVec s w) (j : s.Idx) : addi x y j = IntOp.addi (x j) (y j) := rfl
private theorem cmpi_apply {s : Shape} {w : Nat} (pr : CmpIPredicate) (x y : IVec s w) (j : s.Idx) : cmpi pr x y j = IntOp.cmpi pr (x j) (y j) := rfl

private theorem pay12_left (V4 V7 : FVec Ideal S128x64 .bf16) (p q : Fin 128) (c : Fin 64) :
    k0_pay12 (F := Ideal) V4 V7 (ix3 p q (⟨c.val, by have := c.isLt; omega⟩ : Fin 128)) = V4 (ix2 p c) := by
  unfold k0_pay12
  simp only [shapeCast_self, concatL_apply, rowBcast_apply]

private theorem pay12_right (V4 V7 : FVec Ideal S128x64 .bf16) (p q : Fin 128) (c : Fin 64) :
    k0_pay12 (F := Ideal) V4 V7 (ix3 p q (⟨64 + c.val, by have := c.isLt; omega⟩ : Fin 128)) = V7 (ix2 q c) := by
  unfold k0_pay12
  simp only [shapeCast_self, concatR_apply, colBcast_apply]

private theorem pay13_left (V10 V13 : FVec Ideal S128x64 .bf16) (M : IVec S128x128x1 1) (p q : Fin 128) (c : Fin 64) :
    k0_pay13 (F := Ideal) V10 V13 M (ix3 p q (⟨c.val, by have := c.isLt; omega⟩ : Fin 128))
      = V10 (ix2 p c) * FloatOps.sitofp (F := Ideal) .f32 ((M (ix3 p q (0 : Fin 1))).setWidth 32) := by
  unfold k0_pay13
  simp only [shapeCast_self, concatL_apply, mulf_apply, rowBcast_apply, maskBcast_apply, truncf_apply, sitofp_apply, extui_apply]

private theorem pay13_right (V10 V13 : FVec Ideal S128x64 .bf16) (M : IVec S128x128x1 1) (p q : Fin 128) (c : Fin 64) :
    k0_pay13 (F := Ideal) V10 V13 M (ix3 p q (⟨64 + c.val, by have := c.isLt; omega⟩ : Fin 128))
      = V13 (ix2 q c) * FloatOps.sitofp (F := Ideal) .f32 ((M (ix3 p q (0 : Fin 1))).setWidth 32) := by
  unfold k0_pay13
  simp only [shapeCast_self, concatR_apply, mulf_apply, colBcast_apply, maskBcast_apply, truncf_apply, sitofp_apply, extui_apply]

private theorem pay14_left (V16 V19 : FVec Ideal S128x64 .bf16) (V25 : IVec S128x128x1 32) (V32 : IVec S128x128x1 1) (cw : BitVec 32) (p q : Fin 128) (c : Fin 64) :
    k0_pay14 (F := Ideal) V16 V19 V25 V32 cw (ix3 p q (⟨c.val, by have := c.isLt; omega⟩ : Fin 128))
      = V16 (ix2 p c) * FloatOps.sitofp (F := Ideal) .f32
          ((IntOp.andi (V32 (ix3 p q (0 : Fin 1))) (IntOp.cmpi .sge (V25 (ix3 p q (0 : Fin 1))) cw)).setWidth 32) := by
  unfold k0_pay14
  simp only [shapeCast_self, concatL_apply, mulf_apply, rowBcast_apply, maskBcast_apply, truncf_apply, sitofp_apply, extui_apply,
    andi_apply, cmpi_apply, broadcast_apply]

private theorem pay14_right (V16 V19 : FVec Ideal S128x64 .bf16) (V25 : IVec S128x128x1 32) (V32 : IVec S128x128x1 1) (cw : BitVec 32) (p q : Fin 128) (c : Fin 64) :
    k0_pay14 (F := Ideal) V16 V19 V25 V32 cw (ix3 p q (⟨64 + c.val, by have := c.isLt; omega⟩ : Fin 128))
      = V19 (ix2 q c) * FloatOps.sitofp (F := Ideal) .f32
          ((IntOp.andi (V32 (ix3 p q (0 : Fin 1))) (IntOp.cmpi .sge (V25 (ix3 p q (0 : Fin 1))) cw)).setWidth 32) := by
  unfold k0_pay14
  simp only [shapeCast_self, concatR_apply, mulf_apply, colBcast_apply, maskBcast_apply, truncf_apply, sitofp_apply, extui_apply,
    andi_apply, cmpi_apply, broadcast_apply]

/-! ## The position words and masks of a tile -/

/-- Row positions of the tile in the whole array, as words. -/
private theorem pay8_apply (i : grid0.Coords) (p q : Fin 128) :
    k0_pay8 i (ix3 p q (0 : Fin 1)) = BitVec.ofNat 32 (128 * (i 1).val + p.val) := by
  unfold k0_pay8
  simp only [addi_apply, broadcast_apply]
  rw [iota_single_apply]
  exact word_eq (i 1).val (i 1).isLt p

/-- Column positions of the tile in the whole array, as words. -/
private theorem pay9_apply (i : grid0.Coords) (p q : Fin 128) :
    k0_pay9 i (ix3 p q (0 : Fin 1)) = BitVec.ofNat 32 (128 * (i 2).val + q.val) := by
  unfold k0_pay9
  simp only [addi_apply, broadcast_apply]
  rw [iota_single_apply]
  exact word_eq (i 2).val (i 2).isLt q

private theorem pos_lt (a : Nat) (ha : a < 3) (p : Fin 128) : 128 * a + p.val < 1000 := by have := p.isLt; omega

/-- The mask of the pair one up and one to the right, as a float. -/
private theorem maskUp_apply (i : grid0.Coords) (p q : Fin 128) :
    FloatOps.sitofp (F := Ideal) .f32 ((k0_pay10 i (ix3 p q (0 : Fin 1))).setWidth 32)
      = if Cert.Spec.upOk (128 * (i 1).val + p.val) (128 * (i 2).val + q.val) then (1 : EReal) else 0 := by
  unfold k0_pay10
  simp only [andi_apply, cmpi_apply, broadcast_apply, pay8_apply, pay9_apply]
  rw [sge_one _ (pos_lt _ (i 1).isLt p), sle_382 _ (pos_lt _ (i 2).isLt q), andi_bits, sitofp_bit]

/-- The mask of the pair one down and one to the left, as a float. -/
private theorem maskDown_apply (i : grid0.Coords) (p q : Fin 128) :
    FloatOps.sitofp (F := Ideal) .f32
        ((IntOp.andi (k0_pay11 i (ix3 p q (0 : Fin 1))) (IntOp.cmpi .sge (k0_pay9 i (ix3 p q (0 : Fin 1))) 1#32)).setWidth 32)
      = if Cert.Spec.downOk (128 * (i 1).val + p.val) (128 * (i 2).val + q.val) then (1 : EReal) else 0 := by
  unfold k0_pay11
  simp only [cmpi_apply, broadcast_apply, pay8_apply, pay9_apply]
  rw [sge_one _ (pos_lt _ (i 2).isLt q), sle_382 _ (pos_lt _ (i 1).isLt p), andi_bits, sitofp_bit]

/-- A value times a zero-or-one mask is the value where the mask holds and zero elsewhere. -/
private theorem mul_mask (x : EReal) (c : Prop) [Decidable c] : x * (if c then (1 : EReal) else 0) = if c then x else 0 := by
  split
  · exact mul_one x
  · exact mul_zero x

/-! ## The feature tile at an index -/

private theorem band0_emb (p q : Fin 128) (c : Fin 128) :
    rBand0.emb (ix3 p q c : S128x128x128.Idx) = ix3 p q (⟨c.val, by have := c.isLt; omega⟩ : Fin 384) :=
  funext fun a => Fin.ext (match a with
    | ⟨0, _⟩ => by show 0 + 1 * p.val = p.val; omega
    | ⟨1, _⟩ => by show 0 + 1 * q.val = q.val; omega
    | ⟨2, _⟩ => by show 0 + 1 * c.val = c.val; omega)

private theorem band1_emb (p q : Fin 128) (c : Fin 128) :
    rBand1.emb (ix3 p q c : S128x128x128.Idx) = ix3 p q (⟨128 + c.val, by have := c.isLt; omega⟩ : Fin 384) :=
  funext fun a => Fin.ext (match a with
    | ⟨0, _⟩ => by show 0 + 1 * p.val = p.val; omega
    | ⟨1, _⟩ => by show 0 + 1 * q.val = q.val; omega
    | ⟨2, _⟩ => by show 128 + 1 * c.val = 128 + c.val; omega)

private theorem band2_emb (p q : Fin 128) (c : Fin 128) :
    rBand2.emb (ix3 p q c : S128x128x128.Idx) = ix3 p q (⟨256 + c.val, by have := c.isLt; omega⟩ : Fin 384) :=
  funext fun a => Fin.ext (match a with
    | ⟨0, _⟩ => by show 0 + 1 * p.val = p.val; omega
    | ⟨1, _⟩ => by show 0 + 1 * q.val = q.val; omega
    | ⟨2, _⟩ => by show 256 + 1 * c.val = 256 + c.val; omega)

/-- A column below 256 is outside the last band. -/
private theorem notMem_band2 (p q : Fin 128) (k : Fin 384) (hk : k.val < 256) : ix3 p q k ∉ rBand2.set := by
  rw [Rect.mem_set_unit]
  intro h
  have h2 : 256 ≤ k.val := (h 2).1
  omega

/-- A column below 128 is outside the middle band. -/
private theorem notMem_band1 (p q : Fin 128) (k : Fin 384) (hk : k.val < 128) : ix3 p q k ∉ rBand1.set := by
  rw [Rect.mem_set_unit]
  intro h
  have h2 : 128 ≤ k.val := (h 2).1
  omega

/-- Columns 256–383 of the tile are the last band's payload. -/
private theorem featTile_band2 (i : grid0.Coords) (x0 x1 x2 x3 x4 x5 : Vec Ideal S1x128x64 .f32) (p q : Fin 128) (c : Fin 128) :
    featTile (F := Ideal) i x0 x1 x2 x3 x4 x5 (ix3 p q (⟨256 + c.val, by have := c.isLt; omega⟩ : Fin 384))
      = k0_pay14 (F := Ideal) (k0_pay6 (View.ld x4 rIn)) (k0_pay7 (View.ld x5 rIn)) (k0_pay9 i) (k0_pay11 i) 1#32 (ix3 p q c) := by
  unfold featTile featPieces
  rw [← band2_emb p q c]
  exact View.canon_cons_emb rBand2 _ _ _

/-- Columns 128–255 of the tile are the middle band's payload. -/
private theorem featTile_band1 (i : grid0.Coords) (x0 x1 x2 x3 x4 x5 : Vec Ideal S1x128x64 .f32) (p q : Fin 128) (c : Fin 128) :
    featTile (F := Ideal) i x0 x1 x2 x3 x4 x5 (ix3 p q (⟨128 + c.val, by have := c.isLt; omega⟩ : Fin 384))
      = k0_pay13 (F := Ideal) (k0_pay4 (View.ld x2 rIn)) (k0_pay5 (View.ld x3 rIn)) (k0_pay10 i) (ix3 p q c) := by
  unfold featTile featPieces
  refine Eq.trans (View.canon_cons_of_not_mem _ _ ?_) ?_
  · exact notMem_band2 p q _ (by show 128 + c.val < 256; have := c.isLt; omega)
  rw [← band1_emb p q c]
  exact View.canon_cons_emb rBand1 _ _ _

/-- Columns 0–127 of the tile are the first band's payload. -/
private theorem featTile_band0 (i : grid0.Coords) (x0 x1 x2 x3 x4 x5 : Vec Ideal S1x128x64 .f32) (p q : Fin 128) (c : Fin 128) :
    featTile (F := Ideal) i x0 x1 x2 x3 x4 x5 (ix3 p q (⟨c.val, by have := c.isLt; omega⟩ : Fin 384))
      = k0_pay12 (F := Ideal) (k0_pay2 (View.ld x0 rIn)) (k0_pay3 (View.ld x1 rIn)) (ix3 p q c) := by
  unfold featTile featPieces
  refine Eq.trans (View.canon_cons_of_not_mem _ _ ?_) ?_
  · exact notMem_band2 p q _ (by show c.val < 256; have := c.isLt; omega)
  refine Eq.trans (View.canon_cons_of_not_mem _ _ ?_) ?_
  · exact notMem_band1 p q _ (by show c.val < 128; exact c.isLt)
  rw [← band0_emb p q c]
  exact View.canon_cons_emb rBand0 _ _ _

private theorem hz3 : (![0, 0, 0] : Fin 3 → Nat) = fun _ => 0 := by
  funext a; match a with | ⟨0, _⟩ => rfl | ⟨1, _⟩ => rfl | ⟨2, _⟩ => rfl

/-- Entry (r, c) of a block by its coordinates. -/
private theorem blkAt_eq (xw : Vec Ideal S1x128x64 .f32) (r : Fin 128) (c : Fin 64) : blkAt xw r.val c.val = xw (ix3 (0 : Fin 1) r c) := by
  unfold blkAt
  rw [dif_pos ⟨r.isLt, c.isLt⟩]

/-! Feature k of a pair, by the sixth of the 384 features that k falls in. -/

private theorem featBlk_seg1 (i : grid0.Coords) (x0 x1 x2 x3 x4 x5 : Vec Ideal S1x128x64 .f32) (p q c : Nat) (hc : c < 64) :
    featBlk i x0 x1 x2 x3 x4 x5 p q (64 + c) = blkAt x1 q c := by
  unfold featBlk
  rw [if_neg (show ¬ 64 + c < 64 by omega), if_pos (show 64 + c < 128 by omega), show 64 + c - 64 = c by omega]

private theorem featBlk_seg2 (i : grid0.Coords) (x0 x1 x2 x3 x4 x5 : Vec Ideal S1x128x64 .f32) (p q c : Nat) (hc : c < 64) :
    featBlk i x0 x1 x2 x3 x4 x5 p q (128 + c)
      = if Cert.Spec.upOk (128 * (i 1).val + p) (128 * (i 2).val + q) then blkAt x2 p c else 0 := by
  unfold featBlk
  rw [if_neg (show ¬ 128 + c < 64 by omega), if_neg (show ¬ 128 + c < 128 by omega), if_pos (show 128 + c < 192 by omega),
    show 128 + c - 128 = c by omega]

private theorem featBlk_seg3 (i : grid0.Coords) (x0 x1 x2 x3 x4 x5 : Vec Ideal S1x128x64 .f32) (p q c : Nat) (hc : c < 64) :
    featBlk i x0 x1 x2 x3 x4 x5 p q (128 + (64 + c))
      = if Cert.Spec.upOk (128 * (i 1).val + p) (128 * (i 2).val + q) then blkAt x3 q c else 0 := by
  unfold featBlk
  rw [if_neg (show ¬ 128 + (64 + c) < 64 by omega), if_neg (show ¬ 128 + (64 + c) < 128 by omega),
    if_neg (show ¬ 128 + (64 + c) < 192 by omega), if_pos (show 128 + (64 + c) < 256 by omega),
    show 128 + (64 + c) - 192 = c by omega]

private theorem featBlk_seg4 (i : grid0.Coords) (x0 x1 x2 x3 x4 x5 : Vec Ideal S1x128x64 .f32) (p q c : Nat) (hc : c < 64) :
    featBlk i x0 x1 x2 x3 x4 x5 p q (256 + c)
      = if Cert.Spec.downOk (128 * (i 1).val + p) (128 * (i 2).val + q) then blkAt x4 p c else 0 := by
  unfold featBlk
  rw [if_neg (show ¬ 256 + c < 64 by omega), if_neg (show ¬ 256 + c < 128 by omega), if_neg (show ¬ 256 + c < 192 by omega),
    if_neg (show ¬ 256 + c < 256 by omega), if_pos (show 256 + c < 320 by omega), show 256 + c - 256 = c by omega]

private theorem featBlk_seg5 (i : grid0.Coords) (x0 x1 x2 x3 x4 x5 : Vec Ideal S1x128x64 .f32) (p q c : Nat) (hc : c < 64) :
    featBlk i x0 x1 x2 x3 x4 x5 p q (256 + (64 + c))
      = if Cert.Spec.downOk (128 * (i 1).val + p) (128 * (i 2).val + q) then blkAt x5 q c else 0 := by
  unfold featBlk
  rw [if_neg (show ¬ 256 + (64 + c) < 64 by omega), if_neg (show ¬ 256 + (64 + c) < 128 by omega),
    if_neg (show ¬ 256 + (64 + c) < 192 by omega), if_neg (show ¬ 256 + (64 + c) < 256 by omega),
    if_neg (show ¬ 256 + (64 + c) < 320 by omega), show 256 + (64 + c) - 320 = c by omega]

/-- Features 0–63: the pair's own row block. -/
private theorem seg0 (i : grid0.Coords) (x0 x1 x2 x3 x4 x5 : Vec Ideal S1x128x64 .f32) (p q : Fin 128) (c : Fin 64) :
    featTile (F := Ideal) i x0 x1 x2 x3 x4 x5 (ix3 p q (⟨c.val, by have := c.isLt; omega⟩ : Fin 384))
      = featBlk i x0 x1 x2 x3 x4 x5 p.val q.val c.val := by
  refine (featTile_band0 i x0 x1 x2 x3 x4 x5 p q ⟨c.val, by have := c.isLt; omega⟩).trans ?_
  rw [pay12_left, pay2_apply, View.ld_unit_zero (S := S1x128x64) hz3]
  unfold featBlk
  rw [if_pos c.isLt, blkAt_eq]

/-- Features 64–127: the pair's own column block. -/
private theorem seg1 (i : grid0.Coords) (x0 x1 x2 x3 x4 x5 : Vec Ideal S1x128x64 .f32) (p q : Fin 128) (c : Fin 64) :
    featTile (F := Ideal) i x0 x1 x2 x3 x4 x5 (ix3 p q (⟨64 + c.val, by have := c.isLt; omega⟩ : Fin 384))
      = featBlk i x0 x1 x2 x3 x4 x5 p.val q.val (64 + c.val) := by
  have hc := c.isLt
  refine (featTile_band0 i x0 x1 x2 x3 x4 x5 p q ⟨64 + c.val, by omega⟩).trans ?_
  rw [pay12_right, pay3_apply, View.ld_unit_zero (S := S1x128x64) hz3, featBlk_seg1 i x0 x1 x2 x3 x4 x5 p.val q.val c.val hc, blkAt_eq]

/-- Features 128–191: the row block one up, where that pair exists. -/
private theorem seg2 (i : grid0.Coords) (x0 x1 x2 x3 x4 x5 : Vec Ideal S1x128x64 .f32) (p q : Fin 128) (c : Fin 64) :
    featTile (F := Ideal) i x0 x1 x2 x3 x4 x5 (ix3 p q (⟨128 + c.val, by have := c.isLt; omega⟩ : Fin 384))
      = featBlk i x0 x1 x2 x3 x4 x5 p.val q.val (128 + c.val) := by
  have hc := c.isLt
  refine (featTile_band1 i x0 x1 x2 x3 x4 x5 p q ⟨c.val, by omega⟩).trans ?_
  rw [pay13_left, pay4_apply, View.ld_unit_zero (S := S1x128x64) hz3, maskUp_apply, mul_mask,
    featBlk_seg2 i x0 x1 x2 x3 x4 x5 p.val q.val c.val hc, blkAt_eq]

/-- Features 192–255: the column block one to the right, where that pair exists. -/
private theorem seg3 (i : grid0.Coords) (x0 x1 x2 x3 x4 x5 : Vec Ideal S1x128x64 .f32) (p q : Fin 128) (c : Fin 64) :
    featTile (F := Ideal) i x0 x1 x2 x3 x4 x5 (ix3 p q (⟨128 + (64 + c.val), by have := c.isLt; omega⟩ : Fin 384))
      = featBlk i x0 x1 x2 x3 x4 x5 p.val q.val (128 + (64 + c.val)) := by
  have hc := c.isLt
  refine (featTile_band1 i x0 x1 x2 x3 x4 x5 p q ⟨64 + c.val, by omega⟩).trans ?_
  rw [pay13_right, pay5_apply, View.ld_unit_zero (S := S1x128x64) hz3, maskUp_apply, mul_mask,
    featBlk_seg3 i x0 x1 x2 x3 x4 x5 p.val q.val c.val hc, blkAt_eq]

/-- Features 256–319: the row block one down, where that pair exists. -/
private theorem seg4 (i : grid0.Coords) (x0 x1 x2 x3 x4 x5 : Vec Ideal S1x128x64 .f32) (p q : Fin 128) (c : Fin 64) :
    featTile (F := Ideal) i x0 x1 x2 x3 x4 x5 (ix3 p q (⟨256 + c.val, by have := c.isLt; omega⟩ : Fin 384))
      = featBlk i x0 x1 x2 x3 x4 x5 p.val q.val (256 + c.val) := by
  have hc := c.isLt
  refine (featTile_band2 i x0 x1 x2 x3 x4 x5 p q ⟨c.val, by omega⟩).trans ?_
  rw [pay14_left, pay6_apply, View.ld_unit_zero (S := S1x128x64) hz3, maskDown_apply, mul_mask,
    featBlk_seg4 i x0 x1 x2 x3 x4 x5 p.val q.val c.val hc, blkAt_eq]

/-- Features 320–383: the column block one to the left, where that pair exists. -/
private theorem seg5 (i : grid0.Coords) (x0 x1 x2 x3 x4 x5 : Vec Ideal S1x128x64 .f32) (p q : Fin 128) (c : Fin 64) :
    featTile (F := Ideal) i x0 x1 x2 x3 x4 x5 (ix3 p q (⟨256 + (64 + c.val), by have := c.isLt; omega⟩ : Fin 384))
      = featBlk i x0 x1 x2 x3 x4 x5 p.val q.val (256 + (64 + c.val)) := by
  have hc := c.isLt
  refine (featTile_band2 i x0 x1 x2 x3 x4 x5 p q ⟨64 + c.val, by omega⟩).trans ?_
  rw [pay14_right, pay7_apply, View.ld_unit_zero (S := S1x128x64) hz3, maskDown_apply, mul_mask,
    featBlk_seg5 i x0 x1 x2 x3 x4 x5 p.val q.val c.val hc, blkAt_eq]

/-- The feature tile at (p, q, k) is feature k of the pair (p, q). -/
private theorem featTile_apply (i : grid0.Coords) (x0 x1 x2 x3 x4 x5 : Vec Ideal S1x128x64 .f32) (p q : Fin 128) (k : Fin 384) :
    featTile (F := Ideal) i x0 x1 x2 x3 x4 x5 (ix3 p q k) = featBlk i x0 x1 x2 x3 x4 x5 p.val q.val k.val := by
  obtain ⟨kv, hk⟩ := k
  by_cases h1 : kv < 64
  · exact seg0 i x0 x1 x2 x3 x4 x5 p q ⟨kv, h1⟩
  by_cases h2 : kv < 128
  · obtain ⟨d, rfl⟩ : ∃ d, kv = 64 + d := ⟨kv - 64, by omega⟩
    exact seg1 i x0 x1 x2 x3 x4 x5 p q ⟨d, by omega⟩
  by_cases h3 : kv < 192
  · obtain ⟨d, rfl⟩ : ∃ d, kv = 128 + d := ⟨kv - 128, by omega⟩
    exact seg2 i x0 x1 x2 x3 x4 x5 p q ⟨d, by omega⟩
  by_cases h4 : kv < 256
  · obtain ⟨d, rfl⟩ : ∃ d, kv = 128 + (64 + d) := ⟨kv - 192, by omega⟩
    exact seg3 i x0 x1 x2 x3 x4 x5 p q ⟨d, by omega⟩
  by_cases h5 : kv < 320
  · obtain ⟨d, rfl⟩ : ∃ d, kv = 256 + d := ⟨kv - 256, by omega⟩
    exact seg4 i x0 x1 x2 x3 x4 x5 p q ⟨d, by omega⟩
  · obtain ⟨d, rfl⟩ : ∃ d, kv = 256 + (64 + d) := ⟨kv - 320, by omega⟩
    exact seg5 i x0 x1 x2 x3 x4 x5 p q ⟨d, by omega⟩

/-! ## The two dense layers read at an index -/

/-- The row of the flattened [16384, ·] arrays that holds the pair (p, q). -/
private def rowOf (p q : Fin 128) : Fin 16384 := ⟨128 * p.val + q.val, by have := p.isLt; have := q.isLt; omega⟩

private theorem lhsA_0 (j : S16384x128.Idx) (c : dot_S16384x384_S384x128_S16384x128_1_0_0_1_n_n.contr.Idx) :
    (dot_S16384x384_S384x128_S16384x128_1_0_0_1_n_n.lhsIdx j c 0).val = (j 0).val := by
  unfold DotDims.lhsIdx
  rw [dif_neg (show ¬(0 : Fin S16384x384.rank) ∈ dot_S16384x384_S384x128_S16384x128_1_0_0_1_n_n.lhsBatch by decide), dif_pos (show (0 : Fin S16384x384.rank) ∈ dot_S16384x384_S384x128_S16384x128_1_0_0_1_n_n.lhsNonContracting by decide)]
  rfl
private theorem lhsA_1 (j : S16384x128.Idx) (c : dot_S16384x384_S384x128_S16384x128_1_0_0_1_n_n.contr.Idx) :
    (dot_S16384x384_S384x128_S16384x128_1_0_0_1_n_n.lhsIdx j c 1).val = (c ⟨0, by decide⟩).val :=
  dot_S16384x384_S384x128_S16384x128_1_0_0_1_n_n.lhsIdx_val_of_single rfl j c
private theorem rhsA_0 (j : S16384x128.Idx) (c : dot_S16384x384_S384x128_S16384x128_1_0_0_1_n_n.contr.Idx) :
    (dot_S16384x384_S384x128_S16384x128_1_0_0_1_n_n.rhsIdx j c 0).val = (c ⟨0, by decide⟩).val :=
  dot_S16384x384_S384x128_S16384x128_1_0_0_1_n_n.rhsIdx_val_of_single rfl j c
private theorem rhsA_1 (j : S16384x128.Idx) (c : dot_S16384x384_S384x128_S16384x128_1_0_0_1_n_n.contr.Idx) :
    (dot_S16384x384_S384x128_S16384x128_1_0_0_1_n_n.rhsIdx j c 1).val = (j 1).val := by
  unfold DotDims.rhsIdx
  rw [dif_neg (show ¬(1 : Fin S384x128.rank) ∈ dot_S16384x384_S384x128_S16384x128_1_0_0_1_n_n.rhsBatch by decide), dif_pos (show (1 : Fin S384x128.rank) ∈ dot_S16384x384_S384x128_S16384x128_1_0_0_1_n_n.rhsNonContracting by decide)]
  rfl

/-- The first product into a zero accumulator: row r of the left operand against column h of the right. -/
private theorem matmulA_apply (A : FVec Ideal S16384x384 .bf16) (B : FVec Ideal S384x128 .bf16) (r : Fin 16384) (h : Fin 128) :
    matmul dot_S16384x384_S384x128_S16384x128_1_0_0_1_n_n none A B (constant (F := Ideal) S16384x128 .f32 0x00000000#32) (ix2 r h)
      = ∑ k : Fin 384, A (ix2 r k) * B (ix2 k h) := by
  simp only [matmul]
  rw [Ideal.matmul_constant_zero_apply, ← Equiv.sum_comp (contrEquiv1 dot_S16384x384_S384x128_S16384x128_1_0_0_1_n_n 384 rfl rfl).symm]
  refine Finset.sum_congr rfl fun k _ => ?_
  have hk := contrEquiv1_symm_val dot_S16384x384_S384x128_S16384x128_1_0_0_1_n_n 384 rfl rfl k
  have el : dot_S16384x384_S384x128_S16384x128_1_0_0_1_n_n.lhsIdx (ix2 r h) ((contrEquiv1 dot_S16384x384_S384x128_S16384x128_1_0_0_1_n_n 384 rfl rfl).symm k) = ix2 r k := funext fun a => Fin.ext (by
    match a with
    | ⟨0, _⟩ => exact lhsA_0 _ _
    | ⟨1, _⟩ => exact (lhsA_1 _ _).trans hk)
  have er : dot_S16384x384_S384x128_S16384x128_1_0_0_1_n_n.rhsIdx (ix2 r h) ((contrEquiv1 dot_S16384x384_S384x128_S16384x128_1_0_0_1_n_n 384 rfl rfl).symm k) = ix2 k h := funext fun a => Fin.ext (by
    match a with
    | ⟨0, _⟩ => exact (rhsA_0 _ _).trans hk
    | ⟨1, _⟩ => exact rhsA_1 _ _)
  rw [el, er]

private theorem lhsB_0 (j : S16384x1.Idx) (c : dot_S16384x128_S128x1_S16384x1_1_0_0_1_n_n.contr.Idx) :
    (dot_S16384x128_S128x1_S16384x1_1_0_0_1_n_n.lhsIdx j c 0).val = (j 0).val := by
  unfold DotDims.lhsIdx
  rw [dif_neg (show ¬(0 : Fin S16384x128.rank) ∈ dot_S16384x128_S128x1_S16384x1_1_0_0_1_n_n.lhsBatch by decide), dif_pos (show (0 : Fin S16384x128.rank) ∈ dot_S16384x128_S128x1_S16384x1_1_0_0_1_n_n.lhsNonContracting by decide)]
  rfl
private theorem lhsB_1 (j : S16384x1.Idx) (c : dot_S16384x128_S128x1_S16384x1_1_0_0_1_n_n.contr.Idx) :
    (dot_S16384x128_S128x1_S16384x1_1_0_0_1_n_n.lhsIdx j c 1).val = (c ⟨0, by decide⟩).val :=
  dot_S16384x128_S128x1_S16384x1_1_0_0_1_n_n.lhsIdx_val_of_single rfl j c
private theorem rhsB_0 (j : S16384x1.Idx) (c : dot_S16384x128_S128x1_S16384x1_1_0_0_1_n_n.contr.Idx) :
    (dot_S16384x128_S128x1_S16384x1_1_0_0_1_n_n.rhsIdx j c 0).val = (c ⟨0, by decide⟩).val :=
  dot_S16384x128_S128x1_S16384x1_1_0_0_1_n_n.rhsIdx_val_of_single rfl j c
private theorem rhsB_1 (j : S16384x1.Idx) (c : dot_S16384x128_S128x1_S16384x1_1_0_0_1_n_n.contr.Idx) :
    (dot_S16384x128_S128x1_S16384x1_1_0_0_1_n_n.rhsIdx j c 1).val = (j 1).val := by
  unfold DotDims.rhsIdx
  rw [dif_neg (show ¬(1 : Fin S128x1.rank) ∈ dot_S16384x128_S128x1_S16384x1_1_0_0_1_n_n.rhsBatch by decide), dif_pos (show (1 : Fin S128x1.rank) ∈ dot_S16384x128_S128x1_S16384x1_1_0_0_1_n_n.rhsNonContracting by decide)]
  rfl

/-- The second product into a zero accumulator: row r of the hidden units against the one column of weights. -/
private theorem matmulB_apply (A : FVec Ideal S16384x128 .bf16) (B : FVec Ideal S128x1 .bf16) (r : Fin 16384) (u : Fin 1) :
    matmul dot_S16384x128_S128x1_S16384x1_1_0_0_1_n_n none A B (constant (F := Ideal) S16384x1 .f32 0x00000000#32) (ix2 r u)
      = ∑ h : Fin 128, A (ix2 r h) * B (ix2 h u) := by
  simp only [matmul]
  rw [Ideal.matmul_constant_zero_apply, ← Equiv.sum_comp (contrEquiv1 dot_S16384x128_S128x1_S16384x1_1_0_0_1_n_n 128 rfl rfl).symm]
  refine Finset.sum_congr rfl fun k _ => ?_
  have hk := contrEquiv1_symm_val dot_S16384x128_S128x1_S16384x1_1_0_0_1_n_n 128 rfl rfl k
  have el : dot_S16384x128_S128x1_S16384x1_1_0_0_1_n_n.lhsIdx (ix2 r u) ((contrEquiv1 dot_S16384x128_S128x1_S16384x1_1_0_0_1_n_n 128 rfl rfl).symm k) = ix2 r k := funext fun a => Fin.ext (by
    match a with
    | ⟨0, _⟩ => exact lhsB_0 _ _
    | ⟨1, _⟩ => exact (lhsB_1 _ _).trans hk)
  have er : dot_S16384x128_S128x1_S16384x1_1_0_0_1_n_n.rhsIdx (ix2 r u) ((contrEquiv1 dot_S16384x128_S128x1_S16384x1_1_0_0_1_n_n 128 rfl rfl).symm k) = ix2 k u := funext fun a => Fin.ext (by
    match a with
    | ⟨0, _⟩ => exact (rhsB_0 _ _).trans hk
    | ⟨1, _⟩ => exact rhsB_1 _ _)
  rw [el, er]

/-- The flattened feature tile at the row of (p, q). -/
private theorem flatTile_apply (T : FVec Ideal S128x128x384 .bf16) (p q : Fin 128) (k : Fin 384) :
    shapeCast S16384x384 T shapeCasts_S128x128x384_S16384x384 (ix2 (rowOf p q) k) = T (ix3 p q k) :=
  shapeCast_apply T _ _ _ (by
    rw [Shape.rowMajor_val_three, Shape.rowMajor_val_two]
    show (p.val * 128 + q.val) * 384 + k.val = (128 * p.val + q.val) * 384 + k.val
    omega)

/-- The [16384, 1] column folded back to [1, 128, 128, 1], at the pair (p, q). -/
private theorem unflat_apply (V : FVec Ideal S16384x1 .f32) (p q : Fin 128) :
    shapeCast S1x128x128x1 (shapeCast S128x128x1 V shapeCasts_S16384x1_S128x128x1) shapeCasts_S128x128x1_S1x128x128x1 (ix4 (0 : Fin 1) p q (0 : Fin 1))
      = V (ix2 (rowOf p q) (0 : Fin 1)) := by
  refine (shapeCast_abc_1abc_apply _ _ 0 p q 0).trans ?_
  exact shapeCast_apply V _ _ _ (by
    rw [Shape.rowMajor_val_three, Shape.rowMajor_val_two]
    show (128 * p.val + q.val) * 1 + 0 = (p.val * 128 + q.val) * 1 + 0
    omega)

/-- The first bias, one row laid along every row. -/
private theorem biasA_apply (V : FVec Ideal S128 .f32) (r : Fin 16384) (h : Fin 128) :
    broadcastTo S16384x128 (shapeCast S1x128 V shapeCasts_S128_S1x128) broadcasts_S1x128_S16384x128 (ix2 r h) = V (ix1 h) :=
  (broadcastTo_1b_ab_apply _ _ r h).trans (shapeCast_a_1a_apply V _ 0 h)

/-- The second bias, one entry laid along every row. -/
private theorem biasB_apply (V : FVec Ideal S1 .f32) (r : Fin 16384) (u : Fin 1) :
    broadcastTo S16384x1 (shapeCast S1x1 V shapeCasts_S1_S1x1) broadcasts_S1x1_S16384x1 (ix2 r u) = V (ix1 u) :=
  (broadcastTo_1b_ab_apply _ _ r u).trans (shapeCast_a_1a_apply V _ 0 u)

/-- The first layer's weights transposed: entry (k, h) is entry (h, k). -/
private theorem transpA_apply (V : FVec Ideal S128x384 .bf16) (k : Fin 384) (h : Fin 128) :
    transpose S384x128 [1, 0] V transposes_S128x384_p1_0_S384x128 (ix2 k h) = V (ix2 h k) :=
  transpose_ix2_apply V _ k h

/-- The second layer's weights transposed: entry (h, 0) is entry (0, h). -/
private theorem transpB_apply (V : FVec Ideal S1x128 .bf16) (h : Fin 128) (u : Fin 1) :
    transpose S128x1 [1, 0] V transposes_S1x128_p1_0_S128x1 (ix2 h u) = V (ix2 u h) :=
  transpose_ix2_apply V _ h u

/-- The float zero the maximum is taken against. -/
private theorem zeroWord_eq : (FloatOps.ofBits (F := Ideal) .f32 0#32 : Ideal .f32) = (0 : EReal) := Ideal.ofBits_zero_f32

/-- The body's last payload at entry (0, p, q, 0): the tile's row of (p, q) through both dense layers. -/
private theorem pay1_apply (T : FVec Ideal S128x128x384 .bf16) (W1 : FVec Ideal S128x384 .f32) (B1 : FVec Ideal S128 .f32)
    (W2 : FVec Ideal S1x128 .f32) (B2 : FVec Ideal S1 .f32) (p q : Fin 128) :
    k0_pay1 (F := Ideal) T W1 B1 W2 B2 (ix4 (0 : Fin 1) p q (0 : Fin 1))
      = (∑ h : Fin 128, max ((∑ k : Fin 384, T (ix3 p q k) * W1 (ix2 h k)) + B1 (ix1 h)) 0 * W2 (ix2 (0 : Fin 1) h)) + B2 (ix1 (0 : Fin 1)) := by
  unfold k0_pay1
  simp only [unflat_apply, addf_apply, biasB_apply, matmulB_apply, truncf_apply, maximumf_apply, biasA_apply, matmulA_apply,
    flatTile_apply, broadcast_apply, Scalar.ofBits]
  refine congrArg (· + B2 (ix1 (0 : Fin 1))) (Finset.sum_congr rfl fun h _ => ?_)
  rw [transpB_apply, truncf_apply, Ideal.ofBits_zero_f32]
  refine congrArg (fun s => max (s + B1 (ix1 h)) 0 * W2 (ix2 (0 : Fin 1) h)) (Finset.sum_congr rfl fun k _ => ?_)
  rw [transpA_apply, truncf_apply]

/-! ## The output block -/

private theorem hz4 : (![0, 0, 0, 0] : Fin 4 → Nat) = fun _ => 0 := by
  funext a; match a with | ⟨0, _⟩ => rfl | ⟨1, _⟩ => rfl | ⟨2, _⟩ => rfl | ⟨3, _⟩ => rfl
private theorem hz2 : (![0, 0] : Fin 2 → Nat) = fun _ => 0 := by
  funext a; match a with | ⟨0, _⟩ => rfl | ⟨1, _⟩ => rfl
private theorem hz1 : (![0] : Fin 1 → Nat) = fun _ => 0 := by
  funext a; match a with | ⟨0, _⟩ => rfl

/-- The output block at entry (0, p, q, 0). -/
theorem outBlk_apply (i : grid0.Coords) (x0 x1 x2 x3 x4 x5 : Vec Ideal S1x128x64 .f32) (x6 : Vec Ideal S128x384 .f32)
    (x7 : Vec Ideal S128 .f32) (x8 : Vec Ideal S1x128 .f32) (x9 : Vec Ideal S1 .f32) (p q : Fin 128) :
    outBlk (F := Ideal) i x0 x1 x2 x3 x4 x5 x6 x7 x8 x9 (ix4 0 p q 0)
      = (∑ h : Fin 128, max ((∑ k : Fin 384, featBlk i x0 x1 x2 x3 x4 x5 p.val q.val k.val * x6 (ix2 h k)) + x7 (ix1 h)) 0 * x8 (ix2 0 h)) + x9 (ix1 0) := by
  unfold outBlk
  rw [View.canon_unit_zero (S := S1x128x128x1) hz4, View.ld_unit_zero (S := S128x128x384) hz3, View.ld_unit_zero (S := S128x384) hz2,
    View.ld_unit_zero (S := S128) hz1, View.ld_unit_zero (S := S1x128) hz2, View.ld_unit_zero (S := S1) hz1]
  refine (pay1_apply _ x6 x7 x8 x9 p q).trans ?_
  refine congrArg (· + x9 (ix1 (0 : Fin 1))) (Finset.sum_congr rfl fun h _ => ?_)
  refine congrArg (fun s => max (s + x7 (ix1 h)) 0 * x8 (ix2 (0 : Fin 1) h)) (Finset.sum_congr rfl fun k _ => ?_)
  rw [featTile_apply]

end Cert.KernelIdeal.Hand

end
-- ==== Proof.KIValue.lean ====
/- The idealized kernel's result: the array the output window writes back, block by block, is the
   function Spec.G of the five argument arrays. A point's block is the body's output block of the ten input
   blocks; the input blocks are rows 128·i₁ … and 128·i₂ … of x and of its two shifted copies, and a shifted
   copy's row r is x's row r − 1 (r + 1), zero at the array's first (last) row — exactly where the position
   mask drops the feature; the eighteen blocks tile the output array. -/
import proofs.«411783_j76836964926031_3_alg».proof.Proof.KIDats
import proofs.«411783_j76836964926031_3_alg».proof.Proof.KIPayload
import proofs.«411783_j76836964926031_3_alg».proof.Proof.Spec
import Idealize.ShloMosaic.Lib.ValueIdx
import Idealize.ShloMosaic.Lib.Pipeline.Value
import Idealize.ShloMosaic.Lib.KernelVsHost
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The two shifted copies of x, as the region finds them -/

theorem xm1_eq (c : Dev nD) : (V m c main_v1 : S2x384x64.Idx → EReal)
    = pad S2x384x64 ![0, 1, 0] ![0, 0, 0] ![0, 0, 0] (extractStridedSlice S2x383x64 ![0, 0, 0] (m ((c : Thread nD τ).loc main_arg0)) slices_S2x384x64_S2x383x64_0_0_0) (sitofp (F := Ideal) .f32 (constantI S_ 32 0#32)) pads_S2x383x64_S2x384x64_000_100_000 h_S_ := by
  dsimp only [V]
  simp only [hostOps0, hostOps0_1, hostOps0_2, hostOps0_3, List.flatten_cons, List.flatten_nil, List.append_nil, List.cons_append, List.nil_append]
  after_results
  rfl

theorem xp1_eq (c : Dev nD) : (V m c main_v3 : S2x384x64.Idx → EReal)
    = pad S2x384x64 ![0, 0, 0] ![0, 1, 0] ![0, 0, 0] (extractStridedSlice S2x383x64 ![0, 1, 0] (m ((c : Thread nD τ).loc main_arg0)) slices_S2x384x64_S2x383x64_0_1_0) (sitofp (F := Ideal) .f32 (constantI S_ 32 0#32)) pads_S2x383x64_S2x384x64_000_010_000 h_S_ := by
  dsimp only [V]
  simp only [hostOps0, hostOps0_1, hostOps0_2, hostOps0_3, List.flatten_cons, List.flatten_nil, List.append_nil, List.cons_append, List.nil_append]
  after_results
  rfl

/-- The padding value: the integer zero as a float is zero. -/
theorem padval (j : S_.Idx) : (sitofp (F := Ideal) .f32 (constantI S_ 32 0#32) : S_.Idx → EReal) j = 0 := by
  show (((0#32 : BitVec 32).toInt : ℝ) : EReal) = 0
  simp

/-- Row r of the copy shifted down by one: x's row r − 1, zero at row 0. -/
theorem shiftDown_at (x : S2x384x64.Idx → EReal) (b : Fin 2) (r : Nat) (hr : r < 384) (k : Nat) (hk : k < 64) :
    pad S2x384x64 ![0, 1, 0] ![0, 0, 0] ![0, 0, 0] (extractStridedSlice S2x383x64 ![0, 0, 0] x slices_S2x384x64_S2x383x64_0_0_0) (sitofp (F := Ideal) .f32 (constantI S_ 32 0#32)) pads_S2x383x64_S2x384x64_000_100_000 h_S_ (ix3 b ⟨r, hr⟩ ⟨k, hk⟩)
      = if 1 ≤ r then Cert.Spec.xAt x b (r - 1) k else 0 := by
  by_cases h1 : 1 ≤ r
  · rw [if_pos h1]
    rw [pad_apply_of_inside _ _ _ _ _ _ _ _ (ix3 b ⟨r - 1, by omega⟩ ⟨k, hk⟩) (fun a => by
      match a with
      | ⟨0, _⟩ => show b.val = 0 + b.val * (0 + 1); omega
      | ⟨1, _⟩ => show r = 1 + (r - 1) * (0 + 1); omega
      | ⟨2, _⟩ => show k = 0 + k * (0 + 1); omega)]
    rw [extractStridedSlice_apply _ _ _ _ (ix3 b ⟨r - 1, by omega⟩ ⟨k, hk⟩) (fun a => by
      match a with
      | ⟨0, _⟩ => show b.val = 0 + b.val; omega
      | ⟨1, _⟩ => show r - 1 = 0 + (r - 1); omega
      | ⟨2, _⟩ => show k = 0 + k; omega)]
    unfold Cert.Spec.xAt
    rw [dif_pos ⟨by omega, hk⟩]
  · rw [if_neg h1]
    rw [pad_apply_of_not_inside _ _ _ _ _ _ _ _ (1 : Fin 3) (by
      show ¬(1 ≤ r ∧ _)
      exact fun h => h1 h.1)]
    exact padval _

/-- Row r of the copy shifted up by one: x's row r + 1, zero at row 383. -/
theorem shiftUp_at (x : S2x384x64.Idx → EReal) (b : Fin 2) (r : Nat) (hr : r < 384) (k : Nat) (hk : k < 64) :
    pad S2x384x64 ![0, 0, 0] ![0, 1, 0] ![0, 0, 0] (extractStridedSlice S2x383x64 ![0, 1, 0] x slices_S2x384x64_S2x383x64_0_1_0) (sitofp (F := Ideal) .f32 (constantI S_ 32 0#32)) pads_S2x383x64_S2x384x64_000_010_000 h_S_ (ix3 b ⟨r, hr⟩ ⟨k, hk⟩)
      = if r ≤ 382 then Cert.Spec.xAt x b (r + 1) k else 0 := by
  by_cases h1 : r ≤ 382
  · rw [if_pos h1]
    rw [pad_apply_of_inside _ _ _ _ _ _ _ _ (ix3 b ⟨r, by omega⟩ ⟨k, hk⟩) (fun a => by
      match a with
      | ⟨0, _⟩ => show b.val = 0 + b.val * (0 + 1); omega
      | ⟨1, _⟩ => show r = 0 + r * (0 + 1); omega
      | ⟨2, _⟩ => show k = 0 + k * (0 + 1); omega)]
    rw [extractStridedSlice_apply _ _ _ _ (ix3 b ⟨r + 1, by omega⟩ ⟨k, hk⟩) (fun a => by
      match a with
      | ⟨0, _⟩ => show b.val = 0 + b.val; omega
      | ⟨1, _⟩ => show r + 1 = 1 + r; omega
      | ⟨2, _⟩ => show k = 0 + k; omega)]
    unfold Cert.Spec.xAt
    rw [dif_pos ⟨by omega, hk⟩]
  · rw [if_neg h1]
    rw [pad_apply_of_not_inside _ _ _ _ _ _ _ _ (1 : Fin 3) (by
      show ¬(0 ≤ r ∧ (r - 0) % (0 + 1) = 0 ∧ (r - 0) / (0 + 1) < 383)
      intro h; have := h.2.2; simp at this; omega)]
    exact padval _

/-! ## The printed index maps over the grid -/

theorem idx10 : ∀ t : Fin cfg0.N, win0_10.index t (0 : Fin 4) = (grid0.coords t 0).val ∧ win0_10.index t (1 : Fin 4) = (grid0.coords t 1).val
    ∧ win0_10.index t (2 : Fin 4) = (grid0.coords t 2).val ∧ win0_10.index t (3 : Fin 4) = 0 :=
  (by decide +kernel : ∀ t : Fin grid0.N, _)
theorem idx0 : ∀ t : Fin cfg0.N, win0_0.index t (0 : Fin 3) = (grid0.coords t 0).val ∧ win0_0.index t (1 : Fin 3) = (grid0.coords t 1).val ∧ win0_0.index t (2 : Fin 3) = 0 :=
  (by decide +kernel : ∀ t : Fin grid0.N, _)
theorem idx1 : ∀ t : Fin cfg0.N, win0_1.index t (0 : Fin 3) = (grid0.coords t 0).val ∧ win0_1.index t (1 : Fin 3) = (grid0.coords t 2).val ∧ win0_1.index t (2 : Fin 3) = 0 :=
  (by decide +kernel : ∀ t : Fin grid0.N, _)
theorem idx2 : ∀ t : Fin cfg0.N, win0_2.index t (0 : Fin 3) = (grid0.coords t 0).val ∧ win0_2.index t (1 : Fin 3) = (grid0.coords t 1).val ∧ win0_2.index t (2 : Fin 3) = 0 :=
  (by decide +kernel : ∀ t : Fin grid0.N, _)
theorem idx3 : ∀ t : Fin cfg0.N, win0_3.index t (0 : Fin 3) = (grid0.coords t 0).val ∧ win0_3.index t (1 : Fin 3) = (grid0.coords t 2).val ∧ win0_3.index t (2 : Fin 3) = 0 :=
  (by decide +kernel : ∀ t : Fin grid0.N, _)
theorem idx4 : ∀ t : Fin cfg0.N, win0_4.index t (0 : Fin 3) = (grid0.coords t 0).val ∧ win0_4.index t (1 : Fin 3) = (grid0.coords t 1).val ∧ win0_4.index t (2 : Fin 3) = 0 :=
  (by decide +kernel : ∀ t : Fin grid0.N, _)
theorem idx5 : ∀ t : Fin cfg0.N, win0_5.index t (0 : Fin 3) = (grid0.coords t 0).val ∧ win0_5.index t (1 : Fin 3) = (grid0.coords t 2).val ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
/-- Every block of the output array is some point's. -/
theorem idx_onto : ∀ (q0 : Fin 2) (q1 q2 : Fin 3), ∃ t : Fin cfg0.N, win0_10.index t = ![q0.val, q1.val, q2.val, 0] :=
  (by decide +kernel : ∀ (q0 : Fin 2) (q1 q2 : Fin 3), ∃ t : Fin grid0.N, win0_10.index t = ![q0.val, q1.val, q2.val, 0])

/-- The batch of point t. -/
abbrev bOf (t : Fin cfg0.N) : Fin 2 := ⟨(grid0.coords t 0).val, (grid0.coords t 0).isLt⟩
/-- The first row of point t's tile along i, and along j. -/
abbrev iOf (t : Fin cfg0.N) : Nat := 128 * (grid0.coords t 1).val
abbrev jOf (t : Fin cfg0.N) : Nat := 128 * (grid0.coords t 2).val

theorem iOf_lt (t : Fin cfg0.N) (p : Fin 128) : iOf t + p.val < 384 := by
  have := (grid0.coords t 1).isLt; have h : (grid0.coords t 1).val < 3 := this; unfold iOf; omega
theorem jOf_lt (t : Fin cfg0.N) (q : Fin 128) : jOf t + q.val < 384 := by
  have := (grid0.coords t 2).isLt; have h : (grid0.coords t 2).val < 3 := this; unfold jOf; omega

/-! ## The input blocks, read off the arrays -/

/-- Block of window 0 (x along i). -/
theorem blk0_at (c : Dev nD) (t : Fin cfg0.N) (p : Fin 128) (k : Nat) (hk : k < 64) :
    blkAt (iblk m c 0 t) p.val k = Cert.Spec.xAt (m ((c : Thread nD τ).loc main_arg0)) (bOf t) (iOf t + p.val) k := by
  obtain ⟨e0, e1, e2⟩ := idx0 t
  have hl := iOf_lt t p
  unfold blkAt Cert.Spec.xAt
  rw [dif_pos ⟨p.isLt, hk⟩, dif_pos ⟨hl, hk⟩]
  show V m c main_arg0 (((cfg0.win 0).blk t).view.emb (ix3 0 ⟨p.val, p.isLt⟩ ⟨k, hk⟩)) = _
  rw [V_main_arg0]
  refine congrArg _ (funext fun a => Fin.ext ?_)
  match a with
  | ⟨0, _⟩ => show win0_0.index t (0 : Fin 3) * 1 + 1 * 0 = (grid0.coords t 0).val; omega
  | ⟨1, _⟩ => show win0_0.index t (1 : Fin 3) * 128 + 1 * p.val = 128 * (grid0.coords t 1).val + p.val; omega
  | ⟨2, _⟩ => show win0_0.index t (2 : Fin 3) * 64 + 1 * k = k; omega

/-- Block of window 1 (x along j). -/
theorem blk1_at (c : Dev nD) (t : Fin cfg0.N) (q : Fin 128) (k : Nat) (hk : k < 64) :
    blkAt (iblk m c 1 t) q.val k = Cert.Spec.xAt (m ((c : Thread nD τ).loc main_arg0)) (bOf t) (jOf t + q.val) k := by
  obtain ⟨e0, e1, e2⟩ := idx1 t
  have hl := jOf_lt t q
  unfold blkAt Cert.Spec.xAt
  rw [dif_pos ⟨q.isLt, hk⟩, dif_pos ⟨hl, hk⟩]
  show V m c main_arg0 (((cfg0.win 1).blk t).view.emb (ix3 0 ⟨q.val, q.isLt⟩ ⟨k, hk⟩)) = _
  rw [V_main_arg0]
  refine congrArg _ (funext fun a => Fin.ext ?_)
  match a with
  | ⟨0, _⟩ => show win0_1.index t (0 : Fin 3) * 1 + 1 * 0 = (grid0.coords t 0).val; omega
  | ⟨1, _⟩ => show win0_1.index t (1 : Fin 3) * 128 + 1 * q.val = 128 * (grid0.coords t 2).val + q.val; omega
  | ⟨2, _⟩ => show win0_1.index t (2 : Fin 3) * 64 + 1 * k = k; omega

/-- Block of window 2 (the copy shifted down, along i). -/
theorem blk2_at (c : Dev nD) (t : Fin cfg0.N) (p : Fin 128) (k : Nat) (hk : k < 64) :
    blkAt (iblk m c 2 t) p.val k = if 1 ≤ iOf t + p.val then Cert.Spec.xAt (m ((c : Thread nD τ).loc main_arg0)) (bOf t) (iOf t + p.val - 1) k else 0 := by
  obtain ⟨e0, e1, e2⟩ := idx2 t
  have hl := iOf_lt t p
  rw [← shiftDown_at (m ((c : Thread nD τ).loc main_arg0)) (bOf t) (iOf t + p.val) hl k hk, ← xm1_eq m c]
  unfold blkAt
  rw [dif_pos ⟨p.isLt, hk⟩]
  show V m c main_v1 (((cfg0.win 2).blk t).view.emb (ix3 0 ⟨p.val, p.isLt⟩ ⟨k, hk⟩)) = _
  refine congrArg _ (funext fun a => Fin.ext ?_)
  match a with
  | ⟨0, _⟩ => show win0_2.index t (0 : Fin 3) * 1 + 1 * 0 = (grid0.coords t 0).val; omega
  | ⟨1, _⟩ => show win0_2.index t (1 : Fin 3) * 128 + 1 * p.val = 128 * (grid0.coords t 1).val + p.val; omega
  | ⟨2, _⟩ => show win0_2.index t (2 : Fin 3) * 64 + 1 * k = k; omega

/-- Block of window 5 (the copy shifted down, along j). -/
theorem blk5_at (c : Dev nD) (t : Fin cfg0.N) (q : Fin 128) (k : Nat) (hk : k < 64) :
    blkAt (iblk m c 5 t) q.val k = if 1 ≤ jOf t + q.val then Cert.Spec.xAt (m ((c : Thread nD τ).loc main_arg0)) (bOf t) (jOf t + q.val - 1) k else 0 := by
  obtain ⟨e0, e1, e2⟩ := idx5 t
  have hl := jOf_lt t q
  rw [← shiftDown_at (m ((c : Thread nD τ).loc main_arg0)) (bOf t) (jOf t + q.val) hl k hk, ← xm1_eq m c]
  unfold blkAt
  rw [dif_pos ⟨q.isLt, hk⟩]
  show V m c main_v1 (((cfg0.win 5).blk t).view.emb (ix3 0 ⟨q.val, q.isLt⟩ ⟨k, hk⟩)) = _
  refine congrArg _ (funext fun a => Fin.ext ?_)
  match a with
  | ⟨0, _⟩ => show win0_5.index t (0 : Fin 3) * 1 + 1 * 0 = (grid0.coords t 0).val; omega
  | ⟨1, _⟩ => show win0_5.index t (1 : Fin 3) * 128 + 1 * q.val = 128 * (grid0.coords t 2).val + q.val; omega
  | ⟨2, _⟩ => show win0_5.index t (2 : Fin 3) * 64 + 1 * k = k; omega

/-- Block of window 3 (the copy shifted up, along j). -/
theorem blk3_at (c : Dev nD) (t : Fin cfg0.N) (q : Fin 128) (k : Nat) (hk : k < 64) :
    blkAt (iblk m c 3 t) q.val k = if jOf t + q.val ≤ 382 then Cert.Spec.xAt (m ((c : Thread nD τ).loc main_arg0)) (bOf t) (jOf t + q.val + 1) k else 0 := by
  obtain ⟨e0, e1, e2⟩ := idx3 t
  have hl := jOf_lt t q
  rw [← shiftUp_at (m ((c : Thread nD τ).loc main_arg0)) (bOf t) (jOf t + q.val) hl k hk, ← xp1_eq m c]
  unfold blkAt
  rw [dif_pos ⟨q.isLt, hk⟩]
  show V m c main_v3 (((cfg0.win 3).blk t).view.emb (ix3 0 ⟨q.val, q.isLt⟩ ⟨k, hk⟩)) = _
  refine congrArg _ (funext fun a => Fin.ext ?_)
  match a with
  | ⟨0, _⟩ => show win0_3.index t (0 : Fin 3) * 1 + 1 * 0 = (grid0.coords t 0).val; omega
  | ⟨1, _⟩ => show win0_3.index t (1 : Fin 3) * 128 + 1 * q.val = 128 * (grid0.coords t 2).val + q.val; omega
  | ⟨2, _⟩ => show win0_3.index t (2 : Fin 3) * 64 + 1 * k = k; omega

/-- Block of window 4 (the copy shifted up, along i). -/
theorem blk4_at (c : Dev nD) (t : Fin cfg0.N) (p : Fin 128) (k : Nat) (hk : k < 64) :
    blkAt (iblk m c 4 t) p.val k = if iOf t + p.val ≤ 382 then Cert.Spec.xAt (m ((c : Thread nD τ).loc main_arg0)) (bOf t) (iOf t + p.val + 1) k else 0 := by
  obtain ⟨e0, e1, e2⟩ := idx4 t
  have hl := iOf_lt t p
  rw [← shiftUp_at (m ((c : Thread nD τ).loc main_arg0)) (bOf t) (iOf t + p.val) hl k hk, ← xp1_eq m c]
  unfold blkAt
  rw [dif_pos ⟨p.isLt, hk⟩]
  show V m c main_v3 (((cfg0.win 4).blk t).view.emb (ix3 0 ⟨p.val, p.isLt⟩ ⟨k, hk⟩)) = _
  refine congrArg _ (funext fun a => Fin.ext ?_)
  match a with
  | ⟨0, _⟩ => show win0_4.index t (0 : Fin 3) * 1 + 1 * 0 = (grid0.coords t 0).val; omega
  | ⟨1, _⟩ => show win0_4.index t (1 : Fin 3) * 128 + 1 * p.val = 128 * (grid0.coords t 1).val + p.val; omega
  | ⟨2, _⟩ => show win0_4.index t (2 : Fin 3) * 64 + 1 * k = k; omega

/-- The weights' and biases' blocks are the whole arrays. -/
theorem blk6_at (c : Dev nD) (t : Fin cfg0.N) (h : Fin 128) (k : Fin 384) :
    iblk m c 6 t (ix2 h k) = m ((c : Thread nD τ).loc main_arg1) (ix2 h k) := by
  obtain ⟨e0, e1⟩ := idx6 t
  show V m c main_arg1 (((cfg0.win 6).blk t).view.emb (ix2 h k)) = _
  rw [V_main_arg1]
  refine congrArg _ (funext fun a => Fin.ext ?_)
  match a with
  | ⟨0, _⟩ => show win0_6.index t (0 : Fin 2) * 128 + 1 * h.val = h.val; omega
  | ⟨1, _⟩ => show win0_6.index t (1 : Fin 2) * 384 + 1 * k.val = k.val; omega
theorem blk7_at (c : Dev nD) (t : Fin cfg0.N) (h : Fin 128) :
    iblk m c 7 t (ix1 h) = m ((c : Thread nD τ).loc main_arg2) (ix1 h) := by
  have e0 := idx7 t
  show V m c main_arg2 (((cfg0.win 7).blk t).view.emb (ix1 h)) = _
  rw [V_main_arg2]
  refine congrArg _ (funext fun a => Fin.ext ?_)
  match a with
  | ⟨0, _⟩ => show win0_7.index t (0 : Fin 1) * 128 + 1 * h.val = h.val; omega
theorem blk8_at (c : Dev nD) (t : Fin cfg0.N) (h : Fin 128) :
    iblk m c 8 t (ix2 0 h) = m ((c : Thread nD τ).loc main_arg3) (ix2 0 h) := by
  obtain ⟨e0, e1⟩ := idx8 t
  show V m c main_arg3 (((cfg0.win 8).blk t).view.emb (ix2 0 h)) = _
  rw [V_main_arg3]
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * h.val = h.val; omega
theorem blk9_at (c : Dev nD) (t : Fin cfg0.N) :
    iblk m c 9 t (ix1 0) = m ((c : Thread nD τ).loc main_arg4) (ix1 0) := by
  have e0 := idx9 t
  show V m c main_arg4 (((cfg0.win 9).blk t).view.emb (ix1 0)) = _
  rw [V_main_arg4]
  refine congrArg _ (funext fun a => Fin.ext ?_)
  match a with
  | ⟨0, _⟩ => show win0_9.index t (0 : Fin 1) * 1 + 1 * 0 = 0; omega

/-! ## The features of a tile are the features of the arrays -/

theorem featBlk_eq (c : Dev nD) (t : Fin cfg0.N) (p q : Fin 128) (k : Fin 384) :
    featBlk (grid0.coords t) (iblk m c 0 t) (iblk m c 1 t) (iblk m c 2 t) (iblk m c 3 t) (iblk m c 4 t) (iblk m c 5 t) p.val q.val k.val
      = Cert.Spec.feat (m ((c : Thread nD τ).loc main_arg0)) (bOf t) (iOf t + p.val) (jOf t + q.val) k.val := by
  have hk := k.isLt
  unfold featBlk Cert.Spec.feat
  show (if k.val < 64 then _ else if k.val < 128 then _ else if k.val < 192 then (if Cert.Spec.upOk (iOf t + p.val) (jOf t + q.val) then _ else 0)
      else if k.val < 256 then (if Cert.Spec.upOk (iOf t + p.val) (jOf t + q.val) then _ else 0)
      else if k.val < 320 then (if Cert.Spec.downOk (iOf t + p.val) (jOf t + q.val) then _ else 0)
      else (if Cert.Spec.downOk (iOf t + p.val) (jOf t + q.val) then _ else 0)) = _
  split_ifs with h1 h2 h3 hu h4 hu' h5 hd hd'
  · exact blk0_at m c t p _ h1
  · exact blk1_at m c t q _ (by omega)
  · rw [blk2_at m c t p _ (by omega), if_pos hu.1]
  · rfl
  · rw [blk3_at m c t q _ (by omega), if_pos hu'.2]
  · rfl
  · rw [blk4_at m c t p _ (by omega), if_pos hd.1]
  · rfl
  · rw [blk5_at m c t q _ (by omega), if_pos hd'.2]
  · rfl

/-! ## What a point writes back, the cover, the array -/

/-- The function G at an index given by its coordinates. -/
theorem G_at (x : S2x384x64.Idx → EReal) (W1 : S128x384.Idx → EReal) (b1 : S128.Idx → EReal) (W2 : S1x128.Idx → EReal) (b2 : S1.Idx → EReal)
    (idx : S2x384x384x1.Idx) (b : Fin 2) (I J : Nat) (h0 : (idx 0).val = b.val) (h1 : (idx 1).val = I) (h2 : (idx 2).val = J) :
    Cert.Spec.G x W1 b1 W2 b2 idx = Cert.Spec.outAt x W1 b1 W2 b2 b I J := by
  unfold Cert.Spec.G
  subst h1 h2
  congr 1
  exact Fin.ext h0

/-- What point t writes back is block t of G of the argument arrays. -/
theorem flushed_eq (c : Dev nD) (t : Fin cfg0.N) :
    (dats m 0 c).flushed 10 t = ((cfg0.win 10).blk t).view.read (Elt Ideal) (Cert.Spec.G (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 10).cut (grid0.coords t) ((dats m 0 c).after 10 t) = _
  rw [after0_10]
  obtain ⟨e0, e1, e2, e3⟩ := idx10 t
  funext y
  obtain ⟨p, q, rfl⟩ : ∃ (p q : Fin 128), y = ix4 0 p q 0 :=
    ⟨y 1, y 2, funext fun a => by
      match a with
      | ⟨0, _⟩ => exact Fin.ext (by have := (y 0).isLt; have h : (y 0).val < 1 := this; show (y 0).val = 0; omega)
      | ⟨1, _⟩ => rfl
      | ⟨2, _⟩ => rfl
      | ⟨3, _⟩ => exact Fin.ext (by have := (y 3).isLt; have h : (y 3).val < 1 := this; show (y 3).val = 0; omega)⟩
  show outBlk (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (ix4 0 p q 0)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 10).blk t).view.emb (ix4 0 p q 0))
  rw [outBlk_apply]
  rw [G_at _ _ _ _ _ _ (bOf t) (iOf t + p.val) (jOf t + q.val)
    (by show win0_10.index t (0 : Fin 4) * 1 + 1 * 0 = (grid0.coords t 0).val; omega)
    (by show win0_10.index t (1 : Fin 4) * 128 + 1 * p.val = 128 * (grid0.coords t 1).val + p.val; omega)
    (by show win0_10.index t (2 : Fin 4) * 128 + 1 * q.val = 128 * (grid0.coords t 2).val + q.val; omega)]
  unfold Cert.Spec.outAt Cert.Spec.hidden
  simp only [featBlk_eq m c t p q, blk6_at m c t, blk7_at m c t, blk8_at m c t, blk9_at m c t]

/-- An index of the array is in point t's block iff each coordinate is in the block's range on its axis. -/
theorem mem_blk (t : Fin cfg0.N) (i : S2x384x384x1.Idx) :
    i ∈ ((cfg0.win 10).blk t).view.set ↔ ∀ a : Fin 4, win0_10.index t a * S1x128x128x1.size a ≤ (i a).val ∧ (i a).val < win0_10.index t a * S1x128x128x1.size a + S1x128x128x1.size a := by
  show i ∈ ((View.whole main_v4).slice (win0_10.rect t)).set ↔ _
  rw [View.set_slice_whole, Rect.mem_set_unit]
  exact Iff.rfl

/-- The eighteen blocks tile the output array. -/
theorem cover (i : S2x384x384x1.Idx) : ∃ t : Fin cfg0.N, (cfg0.win 10).flush t = true ∧ i ∈ ((cfg0.win 10).blk t).view.set := by
  have hi0 : (i 0).val < 2 := (i 0).isLt
  have hi1 : (i 1).val < 384 := (i 1).isLt
  have hi2 : (i 2).val < 384 := (i 2).isLt
  have hi3 : (i 3).val < 1 := (i 3).isLt
  obtain ⟨t, ht⟩ := idx_onto ⟨(i 0).val, hi0⟩ ⟨(i 1).val / 128, by omega⟩ ⟨(i 2).val / 128, by omega⟩
  have q0 : win0_10.index t (0 : Fin 4) = (i 0).val := congrFun ht 0
  have q1 : win0_10.index t (1 : Fin 4) = (i 1).val / 128 := congrFun ht 1
  have q2 : win0_10.index t (2 : Fin 4) = (i 2).val / 128 := congrFun ht 2
  have q3 : win0_10.index t (3 : Fin 4) = 0 := congrFun ht 3
  refine ⟨t, flush0_10 t, ?_⟩
  rw [mem_blk]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 128 ≤ (i 1).val ∧ (i 1).val < win0_10.index t (1 : Fin 4) * 128 + 128; omega
  | ⟨2, _⟩ => show win0_10.index t (2 : Fin 4) * 128 ≤ (i 2).val ∧ (i 2).val < win0_10.index t (2 : Fin 4) * 128 + 128; omega
  | ⟨3, _⟩ => show win0_10.index t (3 : Fin 4) * 1 ≤ (i 3).val ∧ (i 3).val < win0_10.index t (3 : Fin 4) * 1 + 1; omega

/-- The output array after the run is G of the argument arrays. -/
theorem final (c : Dev nD) : (dats m 0 c).arrAt 10 cfg0.N = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 10 _ (fun t _ => flushed_eq m c t) cover

end Cert.KernelIdeal.Hand

end
-- ==== Proof.KIRun.lean ====
/- The idealized kernel's run with its result named: every execution of @main ends with the output array at
   Spec.G of the five argument arrays and the arguments unchanged. -/
import proofs.«411783_j76836964926031_3_alg».proof.Proof.KILaunch
import proofs.«411783_j76836964926031_3_alg».proof.Proof.KIValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v4) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 10).trans (final m c),
      ((h c).1 0).trans (((dats m 0 c).arrAt_in 0 rfl _).trans ((A_eq m c 0).trans (V_main_arg0 m c))),
      ((h c).1 6).trans (((dats m 0 c).arrAt_in 6 rfl _).trans ((A_eq m c 6).trans (V_main_arg1 m c))),
      ((h c).1 7).trans (((dats m 0 c).arrAt_in 7 rfl _).trans ((A_eq m c 7).trans (V_main_arg2 m c))),
      ((h c).1 8).trans (((dats m 0 c).arrAt_in 8 rfl _).trans ((A_eq m c 8).trans (V_main_arg3 m c))),
      ((h c).1 9).trans (((dats m 0 c).arrAt_in 9 rfl _).trans ((A_eq m c 9).trans (V_main_arg4 m c)))⟩)
    (run_main m ρ)

end Cert.KernelIdeal.Hand

end
-- ==== Proof.RefSide.lean ====
/- The reference program's run, read: every execution of it ends with the result array at the function
   Spec.G of the five argument arrays, and the arguments unchanged; and from it the reference's frame. -/
import proofs.«411783_j76836964926031_3_alg».proof.Defs
import proofs.«411783_j76836964926031_3_alg».proof.Proof.Gen.ReferenceIdeal.Run
import proofs.«411783_j76836964926031_3_alg».proof.Proof.Gen.ReferenceIdeal.Read
import proofs.«411783_j76836964926031_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

open scoped BigOperators

namespace Cert.RefSide

open Cert.ReferenceIdeal Cert.ReferenceIdeal.Gen Cert.ReferenceIdeal.Read
open Idealize.ShloMosaic Idealize.SL.Sem Idealize.ShloMosaic.ValueIdx

/-- The [2, 384, 64] argument array, as the reference's stages take it. -/
private abbrev XT := (⟨S2x384x64, .f32⟩ : BufTy).Contents (Elt Ideal)

/-! ## The pair array: columns 0–63 are x[b,i,:], columns 64–127 are x[b,j,:] -/

/-- The broadcast of x along the second position axis reads x[b,i,k]. -/
private theorem v1_at (x : XT) (b : Fin 2) (i j : Fin 384) (k : Fin 64) :
    val_main_v1 (F := Ideal) x (ix4 b i j k) = x (ix3 b i k) := by
  rw [val_main_v1_apply, val_main_v0_apply]
  exact congrArg x (funext fun a => match a with | ⟨0, _⟩ => rfl | ⟨1, _⟩ => rfl | ⟨2, _⟩ => rfl)

/-- The broadcast of x along the first position axis reads x[b,j,k]. -/
private theorem v3_at (x : XT) (b : Fin 2) (i j : Fin 384) (k : Fin 64) :
    val_main_v3 (F := Ideal) x (ix4 b i j k) = x (ix3 b j k) := by
  rw [val_main_v3_apply, val_main_v2_apply]
  exact congrArg x (funext fun a => match a with | ⟨0, _⟩ => rfl | ⟨1, _⟩ => rfl | ⟨2, _⟩ => rfl)

/-- Columns below 64 of the pair array come from the first broadcast. -/
private theorem v4_left (x : XT) (b : Fin 2) (i j : Fin 384) (k : Fin 128) (hk : k.val < 64) :
    val_main_v4 (F := Ideal) x (ix4 b i j k) = x (ix3 b i ⟨k.val, hk⟩) := by
  unfold val_main_v4
  refine (concatenate_pair_apply_left _ (val_main_v1 (F := Ideal) x) (val_main_v3 (F := Ideal) x) _ (ix4 b i j k) rfl
    (ix4 b i j (⟨k.val, hk⟩ : Fin 64) : S2x384x384x64.Idx)
    (fun a => match a with | ⟨0, _⟩ => rfl | ⟨1, _⟩ => rfl | ⟨2, _⟩ => rfl | ⟨3, _⟩ => rfl)).trans ?_
  exact v1_at x b i j ⟨k.val, hk⟩

/-- Columns from 64 on of the pair array come from the second broadcast, 64 columns back. -/
private theorem v4_right (x : XT) (b : Fin 2) (i j : Fin 384) (k : Fin 128) (hk : 64 ≤ k.val) :
    val_main_v4 (F := Ideal) x (ix4 b i j k) = x (ix3 b j ⟨k.val - 64, by have := k.isLt; omega⟩) := by
  unfold val_main_v4
  refine (concatenate_pair_apply_right _ (val_main_v1 (F := Ideal) x) (val_main_v3 (F := Ideal) x) _ (ix4 b i j k) rfl rfl
    (ix4 b i j (⟨k.val - 64, by have := k.isLt; omega⟩ : Fin 64) : S2x384x384x64.Idx)
    (fun a => match a with
      | ⟨0, _⟩ => fun _ => rfl | ⟨1, _⟩ => fun _ => rfl | ⟨2, _⟩ => fun _ => rfl
      | ⟨3, _⟩ => fun h => absurd rfl h)
    (by show k.val - 64 + 64 = k.val; omega)).trans ?_
  exact v3_at x b i j ⟨k.val - 64, by have := k.isLt; omega⟩

/-- Column k of the pair of rows (i, j) of batch b, by natural-number positions. -/
def pairAt (x : (⟨3, ![2, 384, 64]⟩ : Shape).Idx → EReal) (b : Fin 2) (i j k : Nat) : EReal :=
  if k < 64 then Cert.Spec.xAt x b i k else Cert.Spec.xAt x b j (k - 64)

/-- The pair array at an index is the pair of rows at its coordinates. -/
private theorem v4_at (x : XT) (b : Fin 2) (i j : Fin 384) (k : Fin 128) :
    val_main_v4 (F := Ideal) x (ix4 b i j k) = pairAt x b i.val j.val k.val := by
  unfold pairAt Cert.Spec.xAt
  by_cases hk : k.val < 64
  · rw [if_pos hk, dif_pos ⟨i.isLt, hk⟩]
    exact v4_left x b i j k hk
  · have hk' : 64 ≤ k.val := Nat.le_of_not_lt hk
    rw [if_neg hk, dif_pos ⟨j.isLt, by have := k.isLt; omega⟩]
    exact v4_right x b i j k hk'

/-! ## The two shifted pair arrays -/

/-- The padding value, the integer zero word converted, is zero. -/
private theorem padval0 (i : S_.Idx) : val_main_call0_v0 (F := Ideal) i = 0 := by
  rw [val_main_call0_v0_apply, val_main_c_apply]
  show (((0#32 : BitVec 32).toInt : ℝ) : EReal) = 0
  simp

private theorem padval1 (i : S_.Idx) : val_main_call1_v0 (F := Ideal) i = 0 := by
  rw [val_main_call1_v0_apply, val_main_c_0_apply]
  show (((0#32 : BitVec 32).toInt : ℝ) : EReal) = 0
  simp

/-- The pair array cut to rows 0–382 and columns 1–383 of the position grid reads it one column on. -/
private theorem v5_at (x : XT) (b : Fin 2) (i j : Fin 383) (k : Fin 128) :
    val_main_v5 (F := Ideal) x (ix4 b i j k)
      = pairAt x b i.val (j.val + 1) k.val := by
  rw [val_main_v5_apply]
  have e : idx_main_v5 (ix4 b i j k)
      = ix4 b (⟨i.val, by have := i.isLt; omega⟩ : Fin 384) (⟨j.val + 1, by have := j.isLt; omega⟩ : Fin 384) k :=
    funext fun a => match a with
      | ⟨0, _⟩ => rfl | ⟨1, _⟩ => rfl | ⟨2, _⟩ => Fin.ext (by show 1 + j.val = j.val + 1; omega) | ⟨3, _⟩ => rfl
  rw [e]
  exact v4_at x b _ _ k

/-- The pair array cut to rows 1–383 and columns 0–382 of the position grid reads it one row on. -/
private theorem v7_at (x : XT) (b : Fin 2) (i j : Fin 383) (k : Fin 128) :
    val_main_v7 (F := Ideal) x (ix4 b i j k)
      = pairAt x b (i.val + 1) j.val k.val := by
  rw [val_main_v7_apply]
  have e : idx_main_v7 (ix4 b i j k)
      = ix4 b (⟨i.val + 1, by have := i.isLt; omega⟩ : Fin 384) (⟨j.val, by have := j.isLt; omega⟩ : Fin 384) k :=
    funext fun a => match a with
      | ⟨0, _⟩ => rfl | ⟨1, _⟩ => Fin.ext (by show 1 + i.val = i.val + 1; omega) | ⟨2, _⟩ => rfl | ⟨3, _⟩ => rfl
  rw [e]
  exact v4_at x b _ _ k

/-- The first cut, padded one row in front and one column behind: the pair one up and one right where it exists,
    zero elsewhere. -/
private theorem v6_at (x : XT) (b : Fin 2) (i j : Fin 384) (k : Fin 128) :
    val_main_v6 (F := Ideal) x (ix4 b i j k)
      = if Cert.Spec.upOk i.val j.val then pairAt x b (i.val - 1) (j.val + 1) k.val else 0 := by
  unfold val_main_v6
  by_cases h : 1 ≤ i.val ∧ j.val ≤ 382
  · rw [if_pos h]
    refine (pad_apply_of_inside _ _ _ _ _ _ _ (ix4 b i j k)
      (ix4 b (⟨i.val - 1, by have := i.isLt; omega⟩ : Fin 383) (⟨j.val, by omega⟩ : Fin 383) k)
      (fun a => match a with
        | ⟨0, _⟩ => by show b.val = 0 + b.val * (0 + 1); omega
        | ⟨1, _⟩ => by show i.val = 1 + (i.val - 1) * (0 + 1); omega
        | ⟨2, _⟩ => by show j.val = 0 + j.val * (0 + 1); omega
        | ⟨3, _⟩ => by show k.val = 0 + k.val * (0 + 1); omega)).trans ?_
    exact v5_at x b _ _ k
  · rw [if_neg h]
    by_cases hi : 1 ≤ i.val
    · have hj : ¬ j.val ≤ 382 := fun hj => h ⟨hi, hj⟩
      rw [pad_apply_of_not_inside _ _ _ _ _ _ _ (ix4 b i j k) (⟨2, by decide⟩ : Fin 4)
        (by show ¬(0 ≤ j.val ∧ (j.val - 0) % (0 + 1) = 0 ∧ (j.val - 0) / (0 + 1) < 383); omega)]
      exact padval0 _
    · rw [pad_apply_of_not_inside _ _ _ _ _ _ _ (ix4 b i j k) (⟨1, by decide⟩ : Fin 4)
        (by show ¬(1 ≤ i.val ∧ (i.val - 1) % (0 + 1) = 0 ∧ (i.val - 1) / (0 + 1) < 383); omega)]
      exact padval0 _

/-- The second cut, padded one column in front and one row behind: the pair one down and one left where it
    exists, zero elsewhere. -/
private theorem v8_at (x : XT) (b : Fin 2) (i j : Fin 384) (k : Fin 128) :
    val_main_v8 (F := Ideal) x (ix4 b i j k)
      = if Cert.Spec.downOk i.val j.val then pairAt x b (i.val + 1) (j.val - 1) k.val else 0 := by
  unfold val_main_v8
  by_cases h : i.val ≤ 382 ∧ 1 ≤ j.val
  · rw [if_pos h]
    refine (pad_apply_of_inside _ _ _ _ _ _ _ (ix4 b i j k)
      (ix4 b (⟨i.val, by omega⟩ : Fin 383) (⟨j.val - 1, by have := j.isLt; omega⟩ : Fin 383) k)
      (fun a => match a with
        | ⟨0, _⟩ => by show b.val = 0 + b.val * (0 + 1); omega
        | ⟨1, _⟩ => by show i.val = 0 + i.val * (0 + 1); omega
        | ⟨2, _⟩ => by show j.val = 1 + (j.val - 1) * (0 + 1); omega
        | ⟨3, _⟩ => by show k.val = 0 + k.val * (0 + 1); omega)).trans ?_
    exact v7_at x b _ _ k
  · rw [if_neg h]
    by_cases hj : 1 ≤ j.val
    · have hi : ¬ i.val ≤ 382 := fun hi => h ⟨hi, hj⟩
      rw [pad_apply_of_not_inside _ _ _ _ _ _ _ (ix4 b i j k) (⟨1, by decide⟩ : Fin 4)
        (by show ¬(0 ≤ i.val ∧ (i.val - 0) % (0 + 1) = 0 ∧ (i.val - 0) / (0 + 1) < 383); omega)]
      exact padval1 _
    · rw [pad_apply_of_not_inside _ _ _ _ _ _ _ (ix4 b i j k) (⟨2, by decide⟩ : Fin 4)
        (by show ¬(1 ≤ j.val ∧ (j.val - 1) % (0 + 1) = 0 ∧ (j.val - 1) / (0 + 1) < 383); omega)]
      exact padval1 _

/-! ## The 384 features -/

/-- The features are the pair, the pair one up and one right, and the pair one down and one left, 128 columns
    each. -/
theorem feat_eq (x : (⟨3, ![2, 384, 64]⟩ : Shape).Idx → EReal) (b : Fin 2) (i j k : Nat) :
    Cert.Spec.feat x b i j k
      = if k < 128 then pairAt x b i j k
        else if k < 256 then (if Cert.Spec.upOk i j then pairAt x b (i - 1) (j + 1) (k - 128) else 0)
        else (if Cert.Spec.downOk i j then pairAt x b (i + 1) (j - 1) (k - 256) else 0) := by
  unfold Cert.Spec.feat pairAt
  split_ifs <;> first | rfl | omega | (congr 1; omega)

/-- The feature array at an index is the feature of its coordinates. -/
private theorem v9_at (x : XT) (b : Fin 2) (i j : Fin 384) (k : Fin 384) :
    val_main_v9 (F := Ideal) x (ix4 b i j k) = Cert.Spec.feat x b i.val j.val k.val := by
  rw [feat_eq]
  unfold val_main_v9
  by_cases h1 : k.val < 128
  · rw [if_pos h1]
    refine (concatenate_apply_piece _ _ _ (ix4 b i j k) 0 (by show (0 : Nat) < 3; omega) S2x384x384x128 (val_main_v4 (F := Ideal) x) rfl rfl
      0 rfl (ix4 b i j (⟨k.val, h1⟩ : Fin 128) : S2x384x384x128.Idx)
      (fun a => match a with
        | ⟨0, _⟩ => fun _ => rfl | ⟨1, _⟩ => fun _ => rfl | ⟨2, _⟩ => fun _ => rfl
        | ⟨3, _⟩ => fun h => absurd rfl h)
      (by show 0 + k.val = k.val; omega)).trans ?_
    exact v4_at x b i j ⟨k.val, h1⟩
  · rw [if_neg h1]
    by_cases h2 : k.val < 256
    · rw [if_pos h2]
      refine (concatenate_apply_piece _ _ _ (ix4 b i j k) 1 (by show (1 : Nat) < 3; omega) S2x384x384x128 (val_main_v6 (F := Ideal) x) rfl rfl
        128 rfl (ix4 b i j (⟨k.val - 128, by omega⟩ : Fin 128) : S2x384x384x128.Idx)
        (fun a => match a with
          | ⟨0, _⟩ => fun _ => rfl | ⟨1, _⟩ => fun _ => rfl | ⟨2, _⟩ => fun _ => rfl
          | ⟨3, _⟩ => fun h => absurd rfl h)
        (by show 128 + (k.val - 128) = k.val; omega)).trans ?_
      exact v6_at x b i j ⟨k.val - 128, by omega⟩
    · rw [if_neg h2]
      refine (concatenate_apply_piece _ _ _ (ix4 b i j k) 2 (by show (2 : Nat) < 3; omega) S2x384x384x128 (val_main_v8 (F := Ideal) x) rfl rfl
        256 rfl (ix4 b i j (⟨k.val - 256, by have := k.isLt; omega⟩ : Fin 128) : S2x384x384x128.Idx)
        (fun a => match a with
          | ⟨0, _⟩ => fun _ => rfl | ⟨1, _⟩ => fun _ => rfl | ⟨2, _⟩ => fun _ => rfl
          | ⟨3, _⟩ => fun h => absurd rfl h)
        (by show 256 + (k.val - 256) = k.val; omega)).trans ?_
      exact v8_at x b i j ⟨k.val - 256, by have := k.isLt; omega⟩

/-! ## The two dense layers -/

/-- The first dense layer at an index: the sum over the 384 features against row h of the weights. -/
private theorem v10_at (x : XT) (W1 : (⟨S128x384, .f32⟩ : BufTy).Contents (Elt Ideal)) (b : Fin 2) (i j : Fin 384)
    (h : Fin 128) :
    val_main_v10 (F := Ideal) x W1 (ix4 b i j h)
      = ∑ k : Fin 384, Cert.Spec.feat x b i.val j.val k.val * W1 (ix2 h k) := by
  rw [val_main_v10_apply]
  refine Finset.sum_congr rfl fun k _ => ?_
  have e1 : lidx_main_v10 (ix4 b i j h) k = ix4 b i j k :=
    funext fun a => match a with | ⟨0, _⟩ => rfl | ⟨1, _⟩ => rfl | ⟨2, _⟩ => rfl | ⟨3, _⟩ => rfl
  have e2 : ridx_main_v10 (ix4 b i j h) k = ix2 h k :=
    funext fun a => match a with | ⟨0, _⟩ => rfl | ⟨1, _⟩ => rfl
  rw [e1, e2, v9_at]

/-- The hidden layer at an index: the first dense layer, its bias, the maximum against zero. -/
private theorem v14_at (x : XT) (W1 : (⟨S128x384, .f32⟩ : BufTy).Contents (Elt Ideal))
    (b1 : (⟨S128, .f32⟩ : BufTy).Contents (Elt Ideal)) (b : Fin 2) (i j : Fin 384) (h : Fin 128) :
    val_main_v14 (F := Ideal) x W1 b1 (ix4 b i j h) = Cert.Spec.hidden x W1 b1 b i.val j.val h := by
  rw [val_main_v14_apply, val_main_v13_apply, v10_at, val_main_v12_apply, val_main_v11_apply,
    val_main_call2_v0_apply, val_main_call2_cst_apply]
  have e : idx_main_v11 (idx_main_v12 (ix4 b i j h)) = ix1 h :=
    funext fun a => match a with | ⟨0, _⟩ => rfl
  rw [e]
  show max ((∑ k : Fin 384, Cert.Spec.feat x b i.val j.val k.val * W1 (ix2 h k)) + b1 (ix1 h))
      (Ideal.ofBits .f32 0x00000000#32) = _
  rw [Ideal.ofBits_zero_f32]
  rfl

/-- The result at an index: the second dense layer over the 128 hidden units and its bias. -/
private theorem v18_at (x : XT) (W1 : (⟨S128x384, .f32⟩ : BufTy).Contents (Elt Ideal))
    (b1 : (⟨S128, .f32⟩ : BufTy).Contents (Elt Ideal)) (W2 : (⟨S1x128, .f32⟩ : BufTy).Contents (Elt Ideal))
    (b2 : (⟨S1, .f32⟩ : BufTy).Contents (Elt Ideal)) (b : Fin 2) (i j : Fin 384) (l : Fin 1) :
    val_main_v18 (F := Ideal) x W1 b1 W2 b2 (ix4 b i j l) = Cert.Spec.outAt x W1 b1 W2 b2 b i.val j.val := by
  obtain rfl : l = 0 := Subsingleton.elim _ _
  rw [val_main_v18_apply, val_main_v15_apply, val_main_v17_apply, val_main_v16_apply]
  have e : idx_main_v16 (idx_main_v17 (ix4 b i j (0 : Fin 1))) = ix1 (0 : Fin 1) :=
    funext fun a => match a with | ⟨0, _⟩ => rfl
  rw [e]
  have es : ∀ k : Fin 128,
      val_main_v14 (F := Ideal) x W1 b1 (lidx_main_v15 (ix4 b i j (0 : Fin 1)) k)
          * W2 (ridx_main_v15 (ix4 b i j (0 : Fin 1)) k)
        = Cert.Spec.hidden x W1 b1 b i.val j.val k * W2 (ix2 0 k) := fun k => by
    have e1 : lidx_main_v15 (ix4 b i j (0 : Fin 1)) k = ix4 b i j k :=
      funext fun a => match a with | ⟨0, _⟩ => rfl | ⟨1, _⟩ => rfl | ⟨2, _⟩ => rfl | ⟨3, _⟩ => rfl
    have e2 : ridx_main_v15 (ix4 b i j (0 : Fin 1)) k = ix2 (0 : Fin 1) k :=
      funext fun a => match a with | ⟨0, _⟩ => rfl | ⟨1, _⟩ => rfl
    rw [e1, e2, v14_at]
  rw [Finset.sum_congr rfl fun k _ => es k]
  rfl

/-- The reference's last stage is the function G of the five argument arrays. -/
theorem result_eq (x : XT) (W1 : (⟨S128x384, .f32⟩ : BufTy).Contents (Elt Ideal))
    (b1 : (⟨S128, .f32⟩ : BufTy).Contents (Elt Ideal)) (W2 : (⟨S1x128, .f32⟩ : BufTy).Contents (Elt Ideal))
    (b2 : (⟨S1, .f32⟩ : BufTy).Contents (Elt Ideal)) :
    val_main_v18 (F := Ideal) x W1 b1 W2 b2 = Cert.Spec.G x W1 b1 W2 b2 := by
  have key : ∀ (b : Fin 2) (i j : Fin 384) (l : Fin 1),
      val_main_v18 (F := Ideal) x W1 b1 W2 b2 (ix4 b i j l) = Cert.Spec.G x W1 b1 W2 b2 (ix4 b i j l) :=
    fun b i j l => v18_at x W1 b1 W2 b2 b i j l
  funext idx
  rw [eq_ix4 idx]
  exact key (idx 0) (idx 1) (idx 2) (idx 3)

/-- The reference's run with its result named: Spec.G of the argument arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18)
          = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨by rw [(h c).1, val_main_v18_eq, result_eq], (h c).2⟩)
    (Cert.ReferenceIdeal.Value.run (F := Ideal) m ρ)

end Cert.RefSide

end
-- ==== Proof.lean ====
/- The certificate: the three programs run and leave their arguments unchanged; the idealized kernel is the
   kernel's own text read over the extended reals (no rewrite to account for); and the idealized kernel and
   the idealized reference, from memories that agree on the five arguments, end with the same result array:
   the function Spec.G of the arguments. -/
import proofs.«411783_j76836964926031_3_alg».proof.Defs
import proofs.«411783_j76836964926031_3_alg».proof.Proof.Gen.Kernel
import proofs.«411783_j76836964926031_3_alg».proof.Proof.Gen.KernelIdeal
import proofs.«411783_j76836964926031_3_alg».proof.Proof.Gen.ReferenceIdeal
import proofs.«411783_j76836964926031_3_alg».proof.Proof.Gen.Pre_finite_inputs
import proofs.«411783_j76836964926031_3_alg».proof.Proof.KLaunch
import proofs.«411783_j76836964926031_3_alg».proof.Proof.KIRun
import proofs.«411783_j76836964926031_3_alg».proof.Proof.RefSide
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.RefSide.run m ρ),
  trivial,
  fun m ρ m' ρ' _ hagree =>
    ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
      Cert.KernelIdeal.Hand.run m ρ,
      (θ_run Cert.ReferenceIdeal.defs _ _).mono (fun _ h c => ⟨by
          rw [(h c).1, (hagree c).1, (hagree c).2.1, (hagree c).2.2.1, (hagree c).2.2.2.1, (hagree c).2.2.2.2], (h c).2⟩)
        (Cert.RefSide.run m' ρ')⟩⟩

end Cert.Proof

end
